-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S16x1024x1024 .f32) (main_arg1 : FVec F S16x1024x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S16x1024x1024 : Shape := ⟨3, ![16, 1024, 1024]⟩
abbrev S1024x1024 : Shape := ⟨2, ![1024, 1024]⟩
abbrev S1x1024x1024 : Shape := ⟨3, ![1, 1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 15
  | .vmem => 11
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S16x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [0] S1024
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024_2 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024x1024.size a ≤ S16x1024x1024.size a
  hwx0_8 : ∀ i : grid0.Coords, EltTy.bits .f32 = 32 ∨ (Rect.block (s := S16x1024x1024) S1x1024x1024.size (cc0_transform_8 i) (hinb0_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024x1024.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S_ : Shape := ⟨0, ![]⟩
abbrev S16x1024 : Shape := ⟨2, ![16, 1024]⟩
abbrev S16x1x1024 : Shape := ⟨3, ![16, 1, 1024]⟩

abbrev nBuf : Space → Nat
  | .hbm => 119
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S16x1024x1024, .f32⟩
  | .hbm, ⟨9, _⟩ => ⟨S_, .f32⟩
  | .hbm, ⟨10, _⟩ => ⟨S16x1024, .f32⟩
  | .hbm, ⟨11, _⟩ => ⟨S16x1x1024, .f32⟩
  | .hbm, ⟨12, _⟩ => ⟨S16x1x1024, .f32⟩
  | .hbm, ⟨13, _⟩ => ⟨S_, .f32⟩
  | .hbm, ⟨14, _⟩ => ⟨S16x1x1024, .f32⟩
  | .hbm, ⟨15, _⟩ => ⟨S16x1x1024, .f32⟩
  | .hbm, ⟨16, _⟩ => ⟨S16x1024x1024, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S_, .f32⟩
  | .hbm, ⟨22, _⟩ => ⟨S16x1024x1024, .f32⟩
  | .hbm, ⟨23, _⟩ => ⟨S16x1024x1024, .f32⟩
  | .hbm, ⟨24, _⟩ => ⟨S16x1024x1024, .f32⟩
  | .hbm, ⟨25, _⟩ => ⟨S_, .f32⟩
  | .hbm, ⟨26, _⟩ => ⟨S16x1024x1024, .f32⟩
  | .hbm, ⟨27, _⟩ => ⟨S16x1024x1024, .f32⟩
  | .hbm, ⟨28, _⟩ => ⟨S16x1024x1024, .f32⟩
  | .hbm, ⟨29, _⟩ => ⟨S_, .f32⟩
  | .hbm, ⟨30, _⟩ => ⟨S16x1024x1024, .f32⟩
  | .hbm, ⟨31, _⟩ => ⟨S16x1024x1024, .f32⟩
  | .hbm, ⟨32, _⟩ => ⟨S16x1024x1024, .f32⟩
  | .hbm, ⟨33, _⟩ => ⟨S_, .f32⟩
  | .hbm, ⟨34, _⟩ => ⟨S16x1024x1024, .f32⟩
  | .hbm, ⟨35, _⟩ => ⟨S16x1024x1024, .f32⟩
  | .hbm, ⟨36, _⟩ => ⟨S16x1024x1024, .f32⟩
  | .hbm, ⟨37, _⟩ => ⟨S_, .f32⟩
  | .hbm, ⟨38, _⟩ => ⟨S16x1024x1024, .f32⟩
  | .hbm, ⟨39, _⟩ => ⟨S16x1024x1024, .f32⟩
  | .hbm, ⟨40, _⟩ => ⟨S16x1024x1024, .f32⟩
  | .hbm, ⟨41, _⟩ => ⟨S_, .f32⟩
  | .hbm, ⟨42, _⟩ => ⟨S16x1024x1024, .f32⟩
  | .hbm, ⟨43, _⟩ => ⟨S16x1024x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16x1024x1024, .f32⟩
  | .hbm, ⟨49, _⟩ => ⟨S16x1024x1024, .f32⟩
  | .hbm, ⟨50, _⟩ => ⟨S16x1024x1024, .f32⟩
  | .hbm, ⟨51, _⟩ => ⟨S_, .f32⟩
  | .hbm, ⟨52, _⟩ => ⟨S16x1024, .f32⟩
  | .hbm, ⟨53, _⟩ => ⟨S_, .f32⟩
  | .hbm, ⟨54, _⟩ => ⟨S16x1024, .f32⟩
  | .hbm, ⟨55, _⟩ => ⟨S16x1024, .f32⟩
  | .hbm, ⟨56, _⟩ => ⟨S16x1x1024, .f32⟩
  | .hbm, ⟨57, _⟩ => ⟨S16x1024x1024, .f32⟩
  | .hbm, ⟨58, _⟩ => ⟨S16x1024x1024, .f32⟩
  | .hbm, ⟨59, _⟩ => ⟨S16x1024x1024, .f32⟩
  | .hbm, ⟨60, _⟩ => ⟨S_, .f32⟩
  | .hbm, ⟨61, _⟩ => ⟨S16x1024, .f32⟩
  | .hbm, ⟨62, _⟩ => ⟨S16x1x1024, .f32⟩
  | .hbm, ⟨63, _⟩ => ⟨S16x1024x1024, .f32⟩
  | .hbm, ⟨64, _⟩ => ⟨S16x1024x1024, .f32⟩
  | .hbm, ⟨65, _⟩ => ⟨S16x1024x1024, .f32⟩
  | .hbm, ⟨66, _⟩ => ⟨S16x1024x1024, .f32⟩
  | .hbm, ⟨67, _⟩ => ⟨S16x1024x1024, .f32⟩
  | .hbm, ⟨68, _⟩ => ⟨S16x1024x1024, .f32⟩
  | .hbm, ⟨69, _⟩ => ⟨S_, .f32⟩
  | .hbm, ⟨70, _⟩ => ⟨S16x1024, .f32⟩
  | .hbm, ⟨71, _⟩ => ⟨S16x1x1024, .f32⟩
  | .hbm, ⟨72, _⟩ => ⟨S16x1x1024, .f32⟩
  | .hbm, ⟨73, _⟩ => ⟨S_, .f32⟩
  | .hbm, ⟨74, _⟩ => ⟨S16x1x1024, .f32⟩
  | .hbm, ⟨75, _⟩ => ⟨S16x1x1024, .f32⟩
  | .hbm, ⟨76, _⟩ => ⟨S16x1024x1024, .f32⟩
  | .hbm, ⟨77, _⟩ => ⟨S16x1024x1024, .f32⟩
  | .hbm, ⟨78, _⟩ => ⟨S16x1024x1024, .f32⟩
  | .hbm, ⟨79, _⟩ => ⟨S16x1024x1024, .f32⟩
  | .hbm, ⟨80, _⟩ => ⟨S16x1024x1024, .f32⟩
  | .hbm, ⟨81, _⟩ => ⟨S_, .f32⟩
  | .hbm, ⟨82, _⟩ => ⟨S16x1024, .f32⟩
  | .hbm, ⟨83, _⟩ => ⟨S_, .f32⟩
  | .hbm, ⟨84, _⟩ => ⟨S16x1024, .f32⟩
  | .hbm, ⟨85, _⟩ => ⟨S16x1024, .f32⟩
  | .hbm, ⟨86, _⟩ => ⟨S16x1x1024, .f32⟩
  | .hbm, ⟨87, _⟩ => ⟨S16x1024x1024, .f32⟩
  | .hbm, ⟨88, _⟩ => ⟨S16x1024x1024, .f32⟩
  | .hbm, ⟨89, _⟩ => ⟨S16x1024x1024, .f32⟩
  | .hbm, ⟨90, _⟩ => ⟨S_, .f32⟩
  | .hbm, ⟨91, _⟩ => ⟨S16x1024, .f32⟩
  | .hbm, ⟨92, _⟩ => ⟨S16x1x1024, .f32⟩
  | .hbm, ⟨93, _⟩ => ⟨S16x1024x1024, .f32⟩
  | .hbm, ⟨94, _⟩ => ⟨S16x1024x1024, .f32⟩
  | .hbm, ⟨95, _⟩ => ⟨S16x1024x1024, .f32⟩
  | .hbm, ⟨96, _⟩ => ⟨S16x1024x1024, .f32⟩
  | .hbm, ⟨97, _⟩ => ⟨S16x1024x1024, .f32⟩
  | .hbm, ⟨98, _⟩ => ⟨S16x1024x1024, .f32⟩
  | .hbm, ⟨99, _⟩ => ⟨S_, .f32⟩
  | .hbm, ⟨100, _⟩ => ⟨S16x1024, .f32⟩
  | .hbm, ⟨101, _⟩ => ⟨S16x1x1024, .f32⟩
  | .hbm, ⟨102, _⟩ => ⟨S16x1x1024, .f32⟩
  | .hbm, ⟨103, _⟩ => ⟨S_, .f32⟩
  | .hbm, ⟨104, _⟩ => ⟨S16x1x1024, .f32⟩
  | .hbm, ⟨105, _⟩ => ⟨S16x1x1024, .f32⟩
  | .hbm, ⟨106, _⟩ => ⟨S16x1024x1024, .f32⟩
  | .hbm, ⟨107, _⟩ => ⟨S16x1024x1024, .f32⟩
  | .hbm, ⟨108, _⟩ => ⟨S16x1024x1024, .f32⟩
  | .hbm, ⟨109, _⟩ => ⟨S16x1024x1024, .f32⟩
  | .hbm, ⟨110, _⟩ => ⟨S_, .f32⟩
  | .hbm, ⟨111, _⟩ => ⟨S16x1024, .f32⟩
  | .hbm, ⟨112, _⟩ => ⟨S16x1x1024, .f32⟩
  | .hbm, ⟨113, _⟩ => ⟨S16x1x1024, .f32⟩
  | .hbm, ⟨114, _⟩ => ⟨S_, .f32⟩
  | .hbm, ⟨115, _⟩ => ⟨S16x1x1024, .f32⟩
  | .hbm, ⟨116, _⟩ => ⟨S16x1x1024, .f32⟩
  | .hbm, ⟨117, _⟩ => ⟨S16x1024x1024, .f32⟩
  | .hbm, ⟨118, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_call2_cst : Ref sig .tc := ⟨.hbm, 29, rfl⟩
abbrev main_call2_v0 : Ref sig .tc := ⟨.hbm, 30, rfl⟩
abbrev main_v15 : Ref sig .tc := ⟨.hbm, 31, rfl⟩
abbrev main_v16 : Ref sig .tc := ⟨.hbm, 32, rfl⟩
abbrev main_call3_cst : Ref sig .tc := ⟨.hbm, 33, rfl⟩
abbrev main_call3_v0 : Ref sig .tc := ⟨.hbm, 34, rfl⟩
abbrev main_v17 : Ref sig .tc := ⟨.hbm, 35, rfl⟩
abbrev main_v18 : Ref sig .tc := ⟨.hbm, 36, rfl⟩
abbrev main_call4_cst : Ref sig .tc := ⟨.hbm, 37, rfl⟩
abbrev main_call4_v0 : Ref sig .tc := ⟨.hbm, 38, rfl⟩
abbrev main_v19 : Ref sig .tc := ⟨.hbm, 39, rfl⟩
abbrev main_v20 : Ref sig .tc := ⟨.hbm, 40, rfl⟩
abbrev main_call5_cst : Ref sig .tc := ⟨.hbm, 41, rfl⟩
abbrev main_call5_v0 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]

class Facts₀ : Prop where
  reducesTo_S16x1024x1024_S16x1024_d1 : S16x1024x1024.ReducesTo [1] S16x1024
  h_S_ : 0 < S_.numel
  bcast_S16x1024_S16x1x1024_0_2 : S16x1024.BroadcastsInDim S16x1x1024 (![0, 2] : Fin 2 → Fin S16x1x1024.rank)
  bcast_S_S16x1x1024 : S_.BroadcastsInDim S16x1x1024 (![] : Fin 0 → Fin S16x1x1024.rank)
  bcast_S16x1x1024_S16x1024x1024_0_1_2 : S16x1x1024.BroadcastsInDim S16x1024x1024 (![0, 1, 2] : Fin 3 → Fin S16x1024x1024.rank)
  transposes_S16x1024x1024_S16x1024x1024_0_2_1 : S16x1024x1024.Transposes [0, 2, 1] S16x1024x1024
  bcast_S_S16x1024x1024 : S_.BroadcastsInDim S16x1024x1024 (![] : Fin 0 → Fin S16x1024x1024.rank)
  bcast_S_S16x1024 : S_.BroadcastsInDim S16x1024 (![] : Fin 0 → Fin S16x1024.rank)
  dot_S16x1024x1024_S1024x1024_S16x1024x1024_2_1_01_0_n_n_wf : DotDims.WF S16x1024x1024 S1024x1024 S16x1024x1024 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.Spec.lean ====
/-
  Two-sided cross attention over feature-by-position tiles, written over plain indices.

  A tile is a function of a feature index and a position index, both below 1024, into the extended reals.
  The computation, for one batch element with tiles `v` and `t` and six square weight matrices:
  normalize every column of `t` by its clamped Euclidean norm; project both tiles by the weights and
  rectify; form the scaled scores of keys against queries; take the softmax of every key's row over the
  queries; weight the value projections by it; add the residual tile; normalize columns again; add the two
  sides and normalize once more.

  Two spellings of a quotient occur. One multiplies by the reciprocal of the denominator (`normMul`,
  `softMul`), the other divides by it (`normDiv`, `softDiv`). The whole computation `crossAttn` takes the
  normalization, the softmax and the score scale as parameters, so that both spellings are instances of
  one definition.
-/
import Idealize.ShloMosaic.PureOps.Ideal
import Idealize.ShloMosaic.PureOps.Ideal.Laws
import Idealize.ShloMosaic.Lib.ValueIdx
import Mathlib.Data.Finset.Fold

noncomputable section

namespace Cert.CrossAttn

open Idealize.ShloMosaic Idealize.ShloMosaic.ValueIdx

/-- A feature or position index. -/
abbrev I := Fin 1024

/-- A tile: feature (or row) index first, position (or column) index second. -/
abbrev Mat := I → I → EReal

/-- A rank-two array of extent 1024 × 1024 as a tile. -/
def mat2 (X : (⟨2, ![1024, 1024]⟩ : Shape).Idx → EReal) : Mat := fun a b => X (ix2 a b)

/-- Batch element `b` of a rank-three array of extent 16 × 1024 × 1024 as a tile. -/
def mat3 (X : (⟨3, ![16, 1024, 1024]⟩ : Shape).Idx → EReal) (b : Fin 16) : Mat := fun d l => X (ix3 b d l)

/-- A one-batch block of extent 1 × 1024 × 1024 as a tile. -/
def blk3 (X : (⟨3, ![1, 1024, 1024]⟩ : Shape).Idx → EReal) : Mat := fun d l => X (ix3 (0 : Fin 1) d l)

/-- The clamp below which a column's norm is not used: the single-precision value nearest 1e-12. -/
def eps : EReal := Ideal.ofBits .f32 0x2B8CBCCC#32

/-- The score scale as a literal: the single-precision word of 1/32. -/
def scaleLit : EReal := Ideal.ofBits .f32 0x3D000000#32

/-- The score scale as computed: one over the square root of 1024. -/
def scaleSqrt : EReal := Ideal.div (Ideal.ofBits .f32 0x3F800000#32) (Ideal.sqrt (Ideal.ofBits .f32 0x44800000#32))

/-- The clamped Euclidean norm of a column. -/
def cnorm (x : I → EReal) : EReal := max (Ideal.sqrt (∑ d, x d * x d)) eps

/-- Every column scaled to unit norm, by multiplying with the reciprocal of its clamped norm. -/
def normMul (X : Mat) : Mat := fun d l => X d l * Ideal.div 1 (cnorm fun d' => X d' l)

/-- Every column scaled to unit norm, by dividing by its clamped norm. -/
def normDiv (X : Mat) : Mat := fun d l => Ideal.div (X d l) (cnorm fun d' => X d' l)

/-- The rectified projection of a tile by a weight matrix: entry (e, l) is max (∑ d, W e d · X d l, 0). -/
def proj (W X : Mat) : Mat := fun e l => max (∑ d, W e d * X d l) 0

/-- The scaled scores, key index first: entry (k, q) is (∑ e, K e k · Q e q) · c. -/
def score (c : EReal) (K Q : Mat) : Mat := fun k q => (∑ e, K e k * Q e q) * c

/-- The largest entry of a row, as the fold of the maximum from minus infinity. -/
def rowMax (f : I → EReal) : EReal := Finset.univ.fold max ⊥ f

/-- The exponentials of a score tile's entries, each row shifted by its largest entry. -/
def expShift (S : Mat) : Mat := fun k q => Ideal.exp (S k q - rowMax (S k))

/-- The softmax of every row, by multiplying with the reciprocal of the row's sum. -/
def softMul (S : Mat) : Mat := fun k q => expShift S k q * Ideal.div 1 (∑ q', expShift S k q')

/-- The softmax of every row, by dividing by the row's sum. -/
def softDiv (S : Mat) : Mat := fun k q => Ideal.div (expShift S k q) (∑ q', expShift S k q')

/-- The values weighted by the attention: entry (d, q) is ∑ k, Vv d k · P k q. -/
def attend (Vv P : Mat) : Mat := fun d q => ∑ k, Vv d k * P k q

/-- One side: `x` gives the queries and the residual, `y` the keys and the values. -/
def side (norm soft : Mat → Mat) (c : EReal) (x y wq wk wv : Mat) : Mat :=
  norm fun d q => x d q + attend (proj wv y) (soft (score c (proj wk y) (proj wq x))) d q

/-- Both sides over the normalized `t`, added and normalized. -/
def crossAttn (norm soft : Mat → Mat) (c : EReal) (v t wq1 wk1 wv1 wq2 wk2 wv2 : Mat) : Mat :=
  norm fun d q => side norm soft c v (norm t) wq1 wk1 wv1 d q + side norm soft c (norm t) v wq2 wk2 wv2 d q

end Cert.CrossAttn

end
-- ==== Proof.LibIdealReal.lean ====
/-
  The float operations at the ideal values, on extended reals that are REAL numbers.

  At the ideal values a float is an extended real. A program kept away from the infinities by its precondition
  computes on reals throughout, and each of its operations is then the textbook real operation: this file says
  so, one equation per operation, with the embedding of the reals into the extended reals pushed outside — the
  left side is the operation applied to embedded reals, the right side is one embedded real. Rewriting with these
  equations left to right turns a term of float operations over embedded reals into a single embedded real
  expression, after which what remains is a statement about real numbers.

  Part 1: the scalar operations (a kernel's fields, their host twins, the scalar unit's), the conversion of a
  signed integer, the literal bit patterns, the comparisons, and the maximum against minus infinity.
  Part 2: composites — the smooth part of the stable cross entropy in its two spellings, a finite maximum as a
  fold from minus infinity, a finite sum.

  None of the equations is a simp lemma; the closing comment lists their names in the order a rewriting takes them.
-/
import Idealize.ShloMosaic.PureOps
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Pow.Real
import Mathlib.Analysis.SpecialFunctions.Log.Basic
import Mathlib.Analysis.SpecialFunctions.Exp
import Mathlib.Algebra.BigOperators.Group.Finset.Basic
import Mathlib.Data.Finset.Fold
import Mathlib.Data.Finset.Lattice.Fold

noncomputable section

namespace Idealize.ShloMosaic.IdealReal

open scoped BigOperators

variable {φ : FTy} (a b : ℝ)

/-! ## Part 1 — the scalar operations on reals -/

/-- The embedding of the reals is monotone, so it carries a maximum to the maximum. -/
theorem coe_max : ((max a b : ℝ) : EReal) = max (a : EReal) (b : EReal) :=
  EReal.coe_strictMono.monotone.map_max

/-- The embedding of the reals carries a minimum to the minimum. -/
theorem coe_min : ((min a b : ℝ) : EReal) = min (a : EReal) (b : EReal) :=
  EReal.coe_strictMono.monotone.map_min

/-! ### Sum, difference, product, maximum, minimum -/

/-- The sum of two reals is the real sum. -/
theorem addf_coe : FloatOps.addf (F := Ideal) (φ := φ) (a : EReal) (b : EReal) = ((a + b : ℝ) : EReal) :=
  (EReal.coe_add a b).symm

/-- The difference of two reals is the real difference. -/
theorem subf_coe : FloatOps.subf (F := Ideal) (φ := φ) (a : EReal) (b : EReal) = ((a - b : ℝ) : EReal) :=
  (EReal.coe_sub a b).symm

/-- The product of two reals is the real product. -/
theorem mulf_coe : FloatOps.mulf (F := Ideal) (φ := φ) (a : EReal) (b : EReal) = ((a * b : ℝ) : EReal) :=
  (EReal.coe_mul a b).symm

/-- The maximum of two reals is the real maximum. -/
theorem maximumf_coe : FloatOps.maximumf (F := Ideal) (φ := φ) (a : EReal) (b : EReal) = ((max a b : ℝ) : EReal) :=
  (coe_max a b).symm

/-- The minimum of two reals is the real minimum. -/
theorem minimumf_coe : FloatOps.minimumf (F := Ideal) (φ := φ) (a : EReal) (b : EReal) = ((min a b : ℝ) : EReal) :=
  (coe_min a b).symm

/-- Minus infinity is neutral for the maximum, on the left. -/
theorem maximumf_bot_left (x : Ideal φ) : FloatOps.maximumf (F := Ideal) (φ := φ) (⊥ : EReal) x = x :=
  max_bot_left x

/-- Minus infinity is neutral for the maximum, on the right. -/
theorem maximumf_bot_right (x : Ideal φ) : FloatOps.maximumf (F := Ideal) (φ := φ) x (⊥ : EReal) = x :=
  max_bot_right x

/-! ### Negation and absolute value, a kernel's and the host's -/

/-- The negation of a real is the real negation. -/
theorem negf_coe : FloatOps.negf (F := Ideal) (φ := φ) (a : EReal) = ((-a : ℝ) : EReal) :=
  (EReal.coe_neg a).symm

/-- The absolute value of a real — the larger of it and its negation — is the real absolute value. -/
theorem absf_coe : FloatOps.absf (F := Ideal) (φ := φ) (a : EReal) = ((|a| : ℝ) : EReal) := by
  show max (a : EReal) (-(a : EReal)) = _
  rw [← EReal.coe_neg, ← coe_max, ← abs_eq_max_neg]

/-- The host's negation of a real is the real negation. -/
theorem hostNegf_coe : FloatOps.hostNegf (F := Ideal) (φ := φ) (a : EReal) = ((-a : ℝ) : EReal) :=
  negf_coe a

/-- The host's absolute value of a real is the real absolute value. -/
theorem hostAbsf_coe : FloatOps.hostAbsf (F := Ideal) (φ := φ) (a : EReal) = ((|a| : ℝ) : EReal) :=
  absf_coe a

/-! ### Quotient by a nonzero real -/

/-- The ideal quotient of a real by a nonzero real is the real quotient. -/
theorem ideal_div_coe {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

/-- A kernel's quotient of a real by a nonzero real is the real quotient. -/
theorem divf_coe {b : ℝ} (hb : b ≠ 0) :
    FloatOps.divf (F := Ideal) (φ := φ) (a : EReal) (b : EReal) = ((a / b : ℝ) : EReal) :=
  ideal_div_coe a hb

/-- The host's quotient of a real by a nonzero real is the real quotient. -/
theorem hostDivf_coe {b : ℝ} (hb : b ≠ 0) :
    FloatOps.hostDivf (F := Ideal) (φ := φ) (a : EReal) (b : EReal) = ((a / b : ℝ) : EReal) :=
  ideal_div_coe a hb

/-! ### Exponential and logarithm of one plus -/

/-- A kernel's exponential of a real is the real exponential. -/
theorem exp_coe : FloatOps.exp (F := Ideal) (φ := φ) (a : EReal) = ((Real.exp a : ℝ) : EReal) := rfl

/-- The host's exponential of a real is the real exponential. -/
theorem hostExp_coe : FloatOps.hostUnary (F := Ideal) .exp (φ := φ) (a : EReal) = ((Real.exp a : ℝ) : EReal) := rfl

/-- The ideal `log (1 + ·)` of a real above `-1` is the real logarithm of one plus it. -/
theorem ideal_log1p_coe (h : 0 < 1 + a) : Ideal.log1p (a : EReal) = ((Real.log (1 + a) : ℝ) : EReal) := by
  rw [Ideal.log1p, ← EReal.coe_one, ← EReal.coe_add, Ideal.log_coe, if_neg (not_le.mpr h)]

/-- A kernel's `log1p` of a real above `-1` is the real logarithm of one plus it. -/
theorem log1p_coe (h : 0 < 1 + a) :
    FloatOps.log1p (F := Ideal) (φ := φ) (a : EReal) = ((Real.log (1 + a) : ℝ) : EReal) :=
  ideal_log1p_coe a h

/-- The host's `log1p` of a real above `-1` is the real logarithm of one plus it. -/
theorem hostLog1p_coe (h : 0 < 1 + a) :
    FloatOps.hostUnary (F := Ideal) .log1p (φ := φ) (a : EReal) = ((Real.log (1 + a) : ℝ) : EReal) :=
  ideal_log1p_coe a h

/-! ### The square as a power -/

/-- The ideal power of any real, negative ones too, to the exponent two is its square. -/
theorem ideal_pow_two_coe : Ideal.pow (a : EReal) ((2 : ℝ) : EReal) = ((a ^ 2 : ℝ) : EReal) := by
  rw [Ideal.pow_coe_coe, Real.rpow_eq_pow, Real.rpow_two]

/-- A kernel's power of a real to the exponent two is its square. -/
theorem powf_two_coe : FloatOps.powf (F := Ideal) (φ := φ) (a : EReal) ((2 : ℝ) : EReal) = ((a ^ 2 : ℝ) : EReal) :=
  ideal_pow_two_coe a

/-- The host's power of a real to the exponent two is its square. -/
theorem hostPowf_two_coe :
    FloatOps.hostPowf (F := Ideal) (φ := φ) (a : EReal) ((2 : ℝ) : EReal) = ((a ^ 2 : ℝ) : EReal) :=
  ideal_pow_two_coe a

/-! ### The conversion of a signed integer -/

/-- A signed word converts to the integer it reads as, exactly (a kernel's conversion and the host's are this
    one function). -/
theorem sitofp_eq {w : Nat} (x : BitVec w) :
    FloatOps.sitofp (F := Ideal) φ x = (((x.toInt : ℤ) : ℝ) : EReal) := rfl

/-- The scalar unit's conversion of a signed word likewise. -/
theorem scalar_sitofp_eq {w : Nat} (x : BitVec w) :
    Scalar.sitofp (F := Ideal) φ x = (((x.toInt : ℤ) : ℝ) : EReal) := rfl

/-! ### The literal bit patterns -/

/-- `+0.0` denotes zero. -/
theorem ofBits_zero : Ideal.ofBits .f32 0x00000000#32 = 0 := by
  simp [Ideal.ofBits, Ideal.ieee]

/-- `+0.0` denotes the real zero. -/
theorem ofBits_zero_coe : Ideal.ofBits .f32 0x00000000#32 = ((0 : ℝ) : EReal) := by
  rw [ofBits_zero, EReal.coe_zero]

/-- `1.0` denotes the real one. -/
theorem ofBits_one : Ideal.ofBits .f32 0x3F800000#32 = ((1 : ℝ) : EReal) := by
  simp [Ideal.ofBits, Ideal.ieee, -EReal.coe_mul]; norm_num

/-- `2.0` denotes the real two. -/
theorem ofBits_two : Ideal.ofBits .f32 0x40000000#32 = ((2 : ℝ) : EReal) := by
  simp [Ideal.ofBits, Ideal.ieee, -EReal.coe_mul]; norm_num

/-- `0.25` denotes a quarter. -/
theorem ofBits_quarter : Ideal.ofBits .f32 0x3E800000#32 = ((1 / 4 : ℝ) : EReal) := by
  simp [Ideal.ofBits, Ideal.ieee, -EReal.coe_mul]; norm_num

/-- `0.75` denotes three quarters. -/
theorem ofBits_three_quarters : Ideal.ofBits .f32 0x3F400000#32 = ((3 / 4 : ℝ) : EReal) := by
  simp [Ideal.ofBits, Ideal.ieee, -EReal.coe_mul]; norm_num

/-- `2097152.0`, two to the twenty-first, denotes that real. -/
theorem ofBits_2097152 : Ideal.ofBits .f32 0x4A000000#32 = ((2097152 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-- The pattern of plus infinity denotes the top element. -/
theorem ofBits_inf : Ideal.ofBits .f32 0x7F800000#32 = ⊤ := by
  simp [Ideal.ofBits, Ideal.ieee]

/-- The quiet not-a-number pattern denotes the junk value, the bottom element. -/
theorem ofBits_nan : Ideal.ofBits .f32 0x7FC00000#32 = ⊥ := by
  simp [Ideal.ofBits, Ideal.ieee]

/-! ### Comparisons of reals -/

/-- Equality of two embedded reals is equality of the reals. -/
theorem cmpf_oeq_coe_eq_one :
    FloatOps.cmpf (F := Ideal) (φ := φ) .oeq (a : EReal) (b : EReal) = 1#1 ↔ a = b := by
  show BitVec.ofBool (decide ((a : EReal) = (b : EReal))) = 1#1 ↔ a = b
  by_cases h : a = b
  · simp [h]
  · have : ¬ ((a : EReal) = (b : EReal)) := fun e => h (EReal.coe_eq_coe_iff.mp e)
    simp [h, this]

/-- The equality test of two embedded reals answers zero exactly when the reals differ. -/
theorem cmpf_oeq_coe_eq_zero :
    FloatOps.cmpf (F := Ideal) (φ := φ) .oeq (a : EReal) (b : EReal) = 0#1 ↔ a ≠ b := by
  show BitVec.ofBool (decide ((a : EReal) = (b : EReal))) = 0#1 ↔ a ≠ b
  by_cases h : a = b
  · simp [h]
  · have : ¬ ((a : EReal) = (b : EReal)) := fun e => h (EReal.coe_eq_coe_iff.mp e)
    simp [h, this]

/-- The strict order test of two embedded reals is the order of the reals. -/
theorem cmpf_olt_coe_eq_one :
    FloatOps.cmpf (F := Ideal) (φ := φ) .olt (a : EReal) (b : EReal) = 1#1 ↔ a < b := by
  show BitVec.ofBool (decide ((a : EReal) < (b : EReal))) = 1#1 ↔ a < b
  by_cases h : a < b
  · have : (a : EReal) < (b : EReal) := EReal.coe_lt_coe_iff.mpr h
    simp [h, this]
  · have : ¬ ((a : EReal) < (b : EReal)) := fun e => h (EReal.coe_lt_coe_iff.mp e)
    simp [h, this]

/-- The strict order test of two embedded reals answers zero exactly when the first is not below the second. -/
theorem cmpf_olt_coe_eq_zero :
    FloatOps.cmpf (F := Ideal) (φ := φ) .olt (a : EReal) (b : EReal) = 0#1 ↔ b ≤ a := by
  show BitVec.ofBool (decide ((a : EReal) < (b : EReal))) = 0#1 ↔ b ≤ a
  by_cases h : a < b
  · have : (a : EReal) < (b : EReal) := EReal.coe_lt_coe_iff.mpr h
    simp [h, this, not_le.mpr h]
  · have : ¬ ((a : EReal) < (b : EReal)) := fun e => h (EReal.coe_lt_coe_iff.mp e)
    simp [this, not_lt.mp h]

/-- A selection on the equality test of two embedded reals is the choice by the equality of the reals. -/
theorem select_cmpf_oeq_coe {α : Type} (x y : α) :
    Scalar.select (FloatOps.cmpf (F := Ideal) (φ := φ) .oeq (a : EReal) (b : EReal)) x y = if a = b then x else y := by
  unfold Scalar.select
  by_cases h : a = b
  · rw [(cmpf_oeq_coe_eq_one (φ := φ) a b).mpr h, if_pos (by decide), if_pos h]
  · rw [(cmpf_oeq_coe_eq_zero (φ := φ) a b).mpr h, if_neg (by decide), if_neg h]

/-- A selection on the strict order test of two embedded reals is the choice by the order of the reals. -/
theorem select_cmpf_olt_coe {α : Type} (x y : α) :
    Scalar.select (FloatOps.cmpf (F := Ideal) (φ := φ) .olt (a : EReal) (b : EReal)) x y = if a < b then x else y := by
  unfold Scalar.select
  by_cases h : a < b
  · rw [(cmpf_olt_coe_eq_one (φ := φ) a b).mpr h, if_pos (by decide), if_pos h]
  · rw [(cmpf_olt_coe_eq_zero (φ := φ) a b).mpr (not_lt.mp h), if_neg (by decide), if_neg h]

/-! ### The scalar unit's operations

At the ideal values the scalar unit computes the same exact operations as the vector unit. -/

/-- The scalar unit's sum of two reals is the real sum. -/
theorem scalar_addf_coe : Scalar.addf (F := Ideal) (φ := φ) (a : EReal) (b : EReal) = ((a + b : ℝ) : EReal) :=
  addf_coe a b

/-- The scalar unit's difference of two reals is the real difference. -/
theorem scalar_subf_coe : Scalar.subf (F := Ideal) (φ := φ) (a : EReal) (b : EReal) = ((a - b : ℝ) : EReal) :=
  subf_coe a b

/-- The scalar unit's product of two reals is the real product. -/
theorem scalar_mulf_coe : Scalar.mulf (F := Ideal) (φ := φ) (a : EReal) (b : EReal) = ((a * b : ℝ) : EReal) :=
  mulf_coe a b

/-- The scalar unit's quotient of a real by a nonzero real is the real quotient. -/
theorem scalar_divf_coe {b : ℝ} (hb : b ≠ 0) :
    Scalar.divf (F := Ideal) (φ := φ) (a : EReal) (b : EReal) = ((a / b : ℝ) : EReal) :=
  ideal_div_coe a hb

/-- The scalar unit's maximum of two reals is the real maximum. -/
theorem scalar_maximumf_coe :
    Scalar.maximumf (F := Ideal) (φ := φ) (a : EReal) (b : EReal) = ((max a b : ℝ) : EReal) :=
  maximumf_coe a b

/-- The scalar unit's minimum of two reals is the real minimum. -/
theorem scalar_minimumf_coe :
    Scalar.minimumf (F := Ideal) (φ := φ) (a : EReal) (b : EReal) = ((min a b : ℝ) : EReal) :=
  minimumf_coe a b

/-- The scalar unit's negation of a real is the real negation. -/
theorem scalar_negf_coe : Scalar.negf (F := Ideal) (φ := φ) (a : EReal) = ((-a : ℝ) : EReal) :=
  negf_coe a

/-- The scalar unit's absolute value of a real is the real absolute value. -/
theorem scalar_absf_coe : Scalar.absf (F := Ideal) (φ := φ) (a : EReal) = ((|a| : ℝ) : EReal) :=
  absf_coe (φ := φ) a

/-! ## Part 2 — composites -/

/-- One plus an exponential is positive: the argument of every logarithm below. -/
theorem one_add_exp_pos (t : ℝ) : 0 < 1 + Real.exp t := add_pos one_pos (Real.exp_pos t)

/-! ### The smooth part of the stable cross entropy, `log (1 + exp (-|x|))` -/

/-- The host's spelling at one element: `log1p` of the exponential of the negated absolute value. -/
theorem host_log1p_exp_neg_abs (x : ℝ) :
    FloatOps.hostUnary (F := Ideal) .log1p (φ := φ)
        (FloatOps.hostUnary .exp (FloatOps.hostNegf (FloatOps.hostAbsf (x : EReal))))
      = ((Real.log (1 + Real.exp (-|x|)) : ℝ) : EReal) := by
  rw [hostAbsf_coe, hostNegf_coe, hostExp_coe, hostLog1p_coe _ (one_add_exp_pos _)]

/-- The host's spelling over a whole array, read at an index whose element is the real `x`. -/
theorem host_log1p_exp_neg_abs_apply {s : Shape} (v : FVec Ideal s φ) (i : s.Idx) (x : ℝ) (hv : v i = (x : EReal)) :
    Host.log1p (Host.exp (Host.negf (Host.absf v))) i = ((Real.log (1 + Real.exp (-|x|)) : ℝ) : EReal) := by
  show FloatOps.hostUnary .log1p (FloatOps.hostUnary .exp (FloatOps.hostNegf (FloatOps.hostAbsf (v i)))) = _
  rw [hv]
  exact host_log1p_exp_neg_abs x

/-- A kernel's spelling at one element: the negation written as a subtraction from the literal zero. -/
theorem kernel_log1p_exp_neg_abs (x : ℝ) :
    FloatOps.log1p (F := Ideal) (φ := .f32)
        (FloatOps.exp (FloatOps.subf (FloatOps.ofBits .f32 0x00000000#32) (FloatOps.absf (x : EReal))))
      = ((Real.log (1 + Real.exp (-|x|)) : ℝ) : EReal) := by
  rw [Ideal.ofBits_def, ofBits_zero_coe, absf_coe, subf_coe, zero_sub, exp_coe, log1p_coe _ (one_add_exp_pos _)]

/-- A kernel's spelling over a whole vector — the zero a broadcast scalar literal — read at an index whose
    element is the real `x`. -/
theorem kernel_log1p_exp_neg_abs_apply {s : Shape} (v : FVec Ideal s .f32) (i : s.Idx) (x : ℝ) (hv : v i = (x : EReal)) :
    log1p (exp (subf (broadcast s (Scalar.ofBits (F := Ideal) .f32 0x00000000#32)) (absf v))) i
      = ((Real.log (1 + Real.exp (-|x|)) : ℝ) : EReal) := by
  show FloatOps.log1p (FloatOps.exp (FloatOps.subf (FloatOps.ofBits .f32 0x00000000#32) (FloatOps.absf (v i)))) = _
  rw [hv]
  exact kernel_log1p_exp_neg_abs x

/-! ### A finite maximum, as a fold from minus infinity -/

/-- The fold of the maximum from minus infinity over a nonempty finite set of embedded reals is the embedded
    largest of them. -/
theorem fold_max_bot_coe {ι : Type*} (s : Finset ι) (hs : s.Nonempty) (f : ι → ℝ) :
    s.fold max (⊥ : EReal) (fun k => ((f k : ℝ) : EReal)) = ((s.sup' hs f : ℝ) : EReal) := by
  rw [Finset.apply_sup'_eq_sup'_comp hs (fun r : ℝ => (r : EReal)) coe_max, Finset.sup'_eq_sup]
  rfl

/-- The same with the float maximum as the folded operation, which is how a host max-reduction reads. -/
theorem fold_maximumf_bot_coe {ι : Type*} (s : Finset ι) (hs : s.Nonempty) (f : ι → ℝ) :
    s.fold (FloatOps.maximumf (F := Ideal) (φ := φ)) (⊥ : EReal) (fun k => ((f k : ℝ) : EReal))
      = ((s.sup' hs f : ℝ) : EReal) :=
  fold_max_bot_coe s hs f

/-- The same for any family that is, on the set, the embedding of a real family. -/
theorem fold_maximumf_bot_eq {ι : Type*} (s : Finset ι) (hs : s.Nonempty) (g : ι → Ideal φ) (f : ι → ℝ)
    (hg : ∀ k ∈ s, g k = ((f k : ℝ) : EReal)) :
    s.fold (FloatOps.maximumf (F := Ideal) (φ := φ)) (⊥ : EReal) g = ((s.sup' hs f : ℝ) : EReal) := by
  rw [Finset.fold_congr hg]
  exact fold_maximumf_bot_coe s hs f

/-! ### A finite sum -/

/-- A finite sum of embedded reals is the embedded sum. -/
theorem coe_finset_sum {ι : Type*} (s : Finset ι) (f : ι → ℝ) :
    ∑ k ∈ s, ((f k : ℝ) : EReal) = ((∑ k ∈ s, f k : ℝ) : EReal) := by
  classical
  induction s using Finset.induction_on with
  | empty => rw [Finset.sum_empty, Finset.sum_empty, EReal.coe_zero]
  | insert k s hk ih => rw [Finset.sum_insert hk, Finset.sum_insert hk, ih, EReal.coe_add]

/-- A sum of embedded reals over a whole finite type is the embedded sum. -/
theorem coe_sum {ι : Type*} [Fintype ι] (f : ι → ℝ) : ∑ k, ((f k : ℝ) : EReal) = ((∑ k, f k : ℝ) : EReal) :=
  coe_finset_sum Finset.univ f

/-- A finite sum of a family that is, on the set, the embedding of a real family is the embedded real sum. -/
theorem sum_eq_coe_sum {ι : Type*} (s : Finset ι) (g : ι → EReal) (f : ι → ℝ)
    (hg : ∀ k ∈ s, g k = ((f k : ℝ) : EReal)) : ∑ k ∈ s, g k = ((∑ k ∈ s, f k : ℝ) : EReal) := by
  rw [Finset.sum_congr rfl hg]
  exact coe_finset_sum s f

/-
  The equations above, in the order a rewriting from the leaves of a term to its root takes them (with `simp only`
  the order is immaterial; the side conditions `b ≠ 0` of the quotients and `0 < 1 + a` of `log1p` are goals the
  caller closes, e.g. `simp only [...] ` with a discharger, or `rw` with the hypothesis supplied):

    literals     Ideal.ofBits_def, ofBits_zero (or ofBits_zero_coe), ofBits_one, ofBits_two, ofBits_quarter,
                 ofBits_three_quarters, ofBits_2097152, ofBits_neg_inf, ofBits_inf, ofBits_nan
    conversion   sitofp_eq, scalar_sitofp_eq
    one operand  negf_coe, absf_coe, hostNegf_coe, hostAbsf_coe, exp_coe, hostExp_coe, log1p_coe, hostLog1p_coe,
                 scalar_negf_coe, scalar_absf_coe
    two operands addf_coe, subf_coe, mulf_coe, divf_coe, hostDivf_coe, maximumf_coe, minimumf_coe,
                 maximumf_bot_left, maximumf_bot_right, powf_two_coe, hostPowf_two_coe,
                 scalar_addf_coe, scalar_subf_coe, scalar_mulf_coe, scalar_divf_coe, scalar_maximumf_coe,
                 scalar_minimumf_coe
    comparisons  cmpf_oeq_coe_eq_one, cmpf_oeq_coe_eq_zero, cmpf_olt_coe_eq_one, cmpf_olt_coe_eq_zero,
                 select_cmpf_oeq_coe, select_cmpf_olt_coe
    composites   host_log1p_exp_neg_abs, host_log1p_exp_neg_abs_apply, kernel_log1p_exp_neg_abs,
                 kernel_log1p_exp_neg_abs_apply, fold_max_bot_coe, fold_maximumf_bot_coe, fold_maximumf_bot_eq,
                 coe_finset_sum, coe_sum, sum_eq_coe_sum
    (helpers)    coe_max, coe_min, ideal_div_coe, ideal_log1p_coe, ideal_pow_two_coe, one_add_exp_pos
-/

end Idealize.ShloMosaic.IdealReal

end
-- ==== Proof.Math.lean ====
/-
  The two spellings of the cross attention agree on real inputs.

  Three differences separate them. (1) The score scale: the literal 1/32 against one over the square root of
  1024; both are the real 1/32. (2) A column's normalization multiplies by the reciprocal of the clamped norm
  or divides by it; the clamped norm is at least the positive clamp, hence not zero, and off zero
  x · (1 / c) = x · c⁻¹ = x / c on all extended reals. (3) A softmax row multiplies by the reciprocal of the
  row's sum of exponentials or divides by it; the same law applies once the sum is not zero, and it is not:
  on real scores the row's largest entry is a real number, every exponential of a shifted entry is a positive
  real, and a sum of 1024 positive reals is positive. The scores are real because the inputs are: sums,
  products, maxima against a real, the square root of a sum of squares, and quotients by a nonzero real keep
  real numbers real.
-/
import proofs.«430962_j39101382263234_3_alg».proof.Proof.Spec
import proofs.«430962_j39101382263234_3_alg».proof.Proof.LibIdealReal
import Mathlib.Analysis.SpecialFunctions.Sqrt
import Mathlib.Analysis.SpecialFunctions.Pow.Real

noncomputable section

namespace Cert.CrossAttn

open Idealize.ShloMosaic Idealize.ShloMosaic.IdealReal

/-! ## Real-valued extended reals -/

/-- An extended real that is a real number. -/
def IsReal (x : EReal) : Prop := ∃ r : ℝ, x = (r : EReal)

/-- A tile all of whose entries are real numbers. -/
def IsRealMat (X : Mat) : Prop := ∀ a b, IsReal (X a b)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (coe_max a b).symm⟩

theorem isReal_zero : IsReal 0 := ⟨0, EReal.coe_zero.symm⟩

theorem IsReal.sum {f : I → EReal} (hf : ∀ k, IsReal (f k)) : IsReal (∑ k, f k) := by
  choose g hg using hf
  exact ⟨∑ k, g k, sum_eq_coe_sum Finset.univ f g fun k _ => hg k⟩

/-! ## The literals -/

/-- The clamp is a positive real. -/
theorem eps_pos_real : ∃ r : ℝ, 0 < r ∧ eps = (r : EReal) := by
  refine ⟨9223372 / 2 ^ 63, by positivity, ?_⟩
  unfold eps
  simp [Ideal.ofBits, Ideal.ieee, -EReal.coe_mul]
  norm_num

theorem eps_pos : (0 : EReal) < eps := by
  obtain ⟨r, hr, e⟩ := eps_pos_real
  rw [e]; exact_mod_cast hr

theorem isReal_eps : IsReal eps := by
  obtain ⟨r, _, e⟩ := eps_pos_real; exact ⟨r, e⟩

/-- The literal scale is the real 1/32. -/
theorem scaleLit_eq : scaleLit = ((1 / 32 : ℝ) : EReal) := by
  unfold scaleLit
  simp [Ideal.ofBits, Ideal.ieee, -EReal.coe_mul]
  norm_num

/-- The computed scale, one over the square root of 1024, is the real 1/32. -/
theorem scaleSqrt_eq : scaleSqrt = ((1 / 32 : ℝ) : EReal) := by
  have h1024 : Ideal.ofBits .f32 0x44800000#32 = ((1024 : ℝ) : EReal) := by
    simp [Ideal.ofBits, Ideal.ieee, -EReal.coe_mul]; norm_num
  have hs : Real.sqrt 1024 = 32 := by
    rw [show (1024 : ℝ) = 32 ^ 2 by norm_num]; exact Real.sqrt_sq (by norm_num)
  unfold scaleSqrt
  rw [h1024, ofBits_one, Ideal.sqrt_coe, if_neg (by norm_num), hs, ideal_div_coe 1 (by norm_num : (32 : ℝ) ≠ 0)]

theorem scale_eq : scaleLit = scaleSqrt := scaleLit_eq.trans scaleSqrt_eq.symm

theorem isReal_scaleLit : IsReal scaleLit := ⟨_, scaleLit_eq⟩

/-! ## A product with a reciprocal is the quotient, off zero -/

theorem mul_one_div {x c : EReal} (hc : c ≠ 0) : x * Ideal.div 1 c = Ideal.div x c := by
  unfold Ideal.div
  rw [if_neg hc, if_neg hc, one_mul]

theorem IsReal.div {x c : EReal} (hx : IsReal x) (hc : IsReal c) (h0 : c ≠ 0) : IsReal (Ideal.div x c) := by
  obtain ⟨a, rfl⟩ := hx; obtain ⟨b, rfl⟩ := hc
  have hb : b ≠ 0 := fun e => h0 (by rw [e, EReal.coe_zero])
  exact ⟨a / b, ideal_div_coe a hb⟩

/-! ## The clamped norm -/

theorem cnorm_ne_zero (x : I → EReal) : cnorm x ≠ 0 :=
  ne_of_gt (lt_of_lt_of_le eps_pos (le_max_right _ _))

theorem isReal_cnorm {x : I → EReal} (hx : ∀ d, IsReal (x d)) : IsReal (cnorm x) := by
  choose g hg using hx
  have hs : ∑ d, x d * x d = ((∑ d, g d * g d : ℝ) : EReal) :=
    sum_eq_coe_sum Finset.univ _ (fun d => g d * g d) fun d _ => by rw [hg d, EReal.coe_mul]
  have hnn : ¬ (∑ d, g d * g d : ℝ) < 0 := not_lt.mpr (Finset.sum_nonneg fun d _ => mul_self_nonneg (g d))
  unfold cnorm
  rw [hs, Ideal.sqrt_coe, if_neg hnn]
  exact IsReal.max ⟨_, rfl⟩ isReal_eps

/-- The two normalizations are one function. -/
theorem normMul_eq_normDiv : normMul = normDiv := by
  funext X d l
  exact mul_one_div (cnorm_ne_zero _)

theorem isRealMat_normMul {X : Mat} (hX : IsRealMat X) : IsRealMat (normMul X) := fun d l =>
  (hX d l).mul (IsReal.div ⟨1, EReal.coe_one.symm⟩ (isReal_cnorm fun d' => hX d' l) (cnorm_ne_zero _))

/-! ## Projections and scores of real tiles are real -/

theorem isRealMat_proj {W X : Mat} (hW : IsRealMat W) (hX : IsRealMat X) : IsRealMat (proj W X) := fun e l =>
  (IsReal.sum fun d => (hW e d).mul (hX d l)).max isReal_zero

theorem isRealMat_score {c : EReal} {K Q : Mat} (hc : IsReal c) (hK : IsRealMat K) (hQ : IsRealMat Q) :
    IsRealMat (score c K Q) := fun k q =>
  (IsReal.sum fun e => (hK e k).mul (hQ e q)).mul hc

/-! ## The softmax of a real row -/

/-- On a real row the sum of the shifted exponentials is not zero. -/
theorem sum_expShift_ne_zero {S : Mat} (hS : IsRealMat S) (k : I) : ∑ q', expShift S k q' ≠ 0 := by
  choose g hg using hS k
  have hne : (Finset.univ : Finset I).Nonempty := ⟨0, Finset.mem_univ _⟩
  have hm : rowMax (S k) = ((Finset.univ.sup' hne g : ℝ) : EReal) := by
    unfold rowMax
    rw [Finset.fold_congr (g := fun q => ((g q : ℝ) : EReal)) fun q _ => hg q]
    exact fold_max_bot_coe Finset.univ hne g
  have he : ∀ q', expShift S k q' = ((Real.exp (g q' - Finset.univ.sup' hne g) : ℝ) : EReal) := fun q' => by
    unfold expShift
    rw [hm, hg q', ← EReal.coe_sub, Ideal.exp_coe]
  rw [sum_eq_coe_sum Finset.univ _ _ fun q' _ => he q']
  have hpos : (0 : ℝ) < ∑ q', Real.exp (g q' - Finset.univ.sup' hne g) :=
    Finset.sum_pos (fun q' _ => Real.exp_pos _) hne
  exact fun e => (ne_of_gt hpos) (by exact_mod_cast e)

/-- On real scores the two softmaxes agree. -/
theorem softMul_eq_softDiv {S : Mat} (hS : IsRealMat S) : softMul S = softDiv S := by
  funext k q
  exact mul_one_div (sum_expShift_ne_zero hS k)

/-! ## The whole computation -/

/-- On real tiles and weights the product-with-reciprocal spelling with the literal scale is the quotient
    spelling with the computed scale. -/
theorem crossAttn_mul_eq_div {v t wq1 wk1 wv1 wq2 wk2 wv2 : Mat} (hv : IsRealMat v) (ht : IsRealMat t)
    (hq1 : IsRealMat wq1) (hk1 : IsRealMat wk1) (hq2 : IsRealMat wq2) (hk2 : IsRealMat wk2) :
    crossAttn normMul softMul scaleLit v t wq1 wk1 wv1 wq2 wk2 wv2
      = crossAttn normDiv softDiv scaleSqrt v t wq1 wk1 wv1 wq2 wk2 wv2 := by
  have htn : IsRealMat (normMul t) := isRealMat_normMul ht
  have h1 : softMul (score scaleLit (proj wk1 (normMul t)) (proj wq1 v))
      = softDiv (score scaleLit (proj wk1 (normMul t)) (proj wq1 v)) :=
    softMul_eq_softDiv (isRealMat_score isReal_scaleLit (isRealMat_proj hk1 htn) (isRealMat_proj hq1 hv))
  have h2 : softMul (score scaleLit (proj wk2 v) (proj wq2 (normMul t)))
      = softDiv (score scaleLit (proj wk2 v) (proj wq2 (normMul t))) :=
    softMul_eq_softDiv (isRealMat_score isReal_scaleLit (isRealMat_proj hk2 hv) (isRealMat_proj hq2 htn))
  unfold crossAttn side
  rw [h1, h2, normMul_eq_normDiv, scale_eq]

end Cert.CrossAttn

end
-- ==== Proof.Finite.lean ====
/-
  Finiteness from the precondition.

  The precondition tests, for each of the eight argument arrays, that the absolute value of every entry is
  strictly below plus infinity, takes the conjunction over all entries of the array, and then the
  conjunction of the eight results. In the extended reals the absolute value of `x` is `max x (-x)`,
  which is the top element exactly when `x` is the top or the bottom element. So the test passing at an
  entry says that the entry is neither of the two infinities, that is, a real number.
-/
import proofs.«430962_j39101382263234_3_alg».proof.Pre_finite_inputs
import proofs.«430962_j39101382263234_3_alg».proof.Proof.Gen.Pre_finite_inputs
import Idealize.ShloMosaic.Lib.ReduceAll
import Idealize.ShloMosaic.PureOps.Ideal

namespace Cert.CrossAttn.Finite

open Idealize.ShloMosaic Cert.Pre_finite_inputs

/-- The bit pattern of the comparison's right-hand side denotes plus infinity. -/
theorem ofBits_inf : Ideal.ofBits .f32 0x7F800000#32 = (⊤ : EReal) := by
  simp [Ideal.ofBits, Ideal.ieee]

/-- An extended real whose absolute value compares strictly below the top element is a real number:
    at the bottom element `-x` is the top, at the top element `x` is, and neither is strictly below the top. -/
theorem real_of_abs_lt_top (x : EReal) (h : Ideal.cmp .olt (max x (-x)) ⊤ = 1#1) : ∃ r : ℝ, x = (r : EReal) := by
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton S_.Idx := ⟨fun a b => funext fun d => d.elim0⟩

/-- One array's test, read back: if the conjunction over all entries of "the absolute value is strictly
    below plus infinity" is true, every entry is a real number. The shape and the reduced axes are arbitrary. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) :
    ∀ i, ∃ r : ℝ, x i = (r : EReal) := by
  intro i
  have hi := Host.reduce_andi_all _ _ hr hu j e i
  refine real_of_abs_lt_top (x i) ?_
  rw [← ofBits_inf]
  exact hi

/-- The conjunction of two truth values at an index is the conjunction of the two at that index. -/
theorem andi_apply {s : Shape} {w : Nat} (x y : IVec s w) (i : s.Idx) :
    Idealize.ShloMosaic.andi x y i = IntOp.andi (x i) (y i) := rfl

/-- If the precondition holds of the eight argument arrays, every entry of every one of them is a real number. -/
theorem real_of_pre [Cert.Pre_finite_inputs.Facts] (a0 a1 : FVec Ideal S16x1024x1024 .f32) (a2 a3 a4 a5 a6 a7 : FVec Ideal S1024x1024 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) := by
  have h0 := congrFun h (fun a => a.elim0)
  dsimp only [Cert.Pre_finite_inputs.fn, Cert.Pre_finite_inputs.fn_part1, Cert.Pre_finite_inputs.fn_part2] at h0
  simp only [andi_apply, IntOp.andi_eq_one] at h0
  obtain ⟨⟨⟨⟨⟨⟨⟨e0, e1⟩, e2⟩, e3⟩, e4⟩, e5⟩, e6⟩, e7⟩ := h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6, all_real a7 _ _ _ _ e7⟩

end Cert.CrossAttn.Finite
-- ==== Proof.KerSide.lean ====
/-
  The kernel side: what the body leaves in the output block, entry by entry.

  The body loads one batch element's two tiles and the six weight matrices, and stores one tile. Its arithmetic is a
  composition of five vector patterns, each of which is an operation on tiles (functions of a feature index and a
  position index):

  * a column normalization: the tile times the row of reciprocals of the clamped column norms, the row obtained by
    summing squares down the columns, viewing the sums as one row, taking square roots, clamping from below and
    dividing one by the result, then repeating the row down the tile — this is `normMul`;
  * a product of tiles into a zero accumulator, rows of the left operand against columns of the right one — entry
    (e, l) is the sum over d of W e d · X d l; followed by a maximum with zero it is `proj`, alone it is `attend`;
  * the same contraction taken over the first index of both operands — entry (k, q) is the sum over e of
    K e k · Q e q; times the splat of the scale's word it is `score scaleLit`;
  * the shifted exponentials: the maximum along each row (a fold of `max` from minus infinity) viewed as one column,
    repeated across the tile, subtracted, exponentiated — this is `expShift`;
  * the softmax: those exponentials times the column of reciprocals of their row sums — this is `softMul`.

  A change of float format is the identity on extended reals, so the format changes between the patterns vanish.
  Each pattern is read at a pair of coordinates through the layout operations (a shape cast that adds or drops a unit
  axis keeps the remaining coordinates; a broadcast along a unit axis reads coordinate zero there) and through the
  one-axis reductions (a sum or a maximum over the coordinates of the reduced axis). The payloads of the body are
  then compositions of the patterns, and the stored tile is the two-sided cross attention of the loaded ones.
-/
import proofs.«430962_j39101382263234_3_alg».proof.Proof.Spec
import proofs.«430962_j39101382263234_3_alg».proof.Proof.Gen.KernelIdeal.Frame
import Idealize.ShloMosaic.Lib.Pipeline.Value

noncomputable section

namespace Cert.CrossAttn.Ker

open Cert.CrossAttn Cert.KernelIdeal Cert.KernelIdeal.Gen Idealize.ShloMosaic Idealize.ShloMosaic.ValueIdx

/-! ## Shape casts and broadcasts read at coordinates -/

/-- Dropping the unit batch axis of a block reads batch coordinate 0. -/
theorem cast32_apply {α : Type} (x : S1x1024x1024.Idx → α) (d l : Fin 1024) :
    shapeCast S1024x1024 x shapeCasts_S1x1024x1024_S1024x1024 (ix2 d l) = x (ix3 (0 : Fin 1) d l) := by
  refine (shapeCast_dropUnit_apply (![1024, 1024]) x shapeCasts_S1x1024x1024_S1024x1024 (ix2 d l)).trans ?_
  exact congrArg x (funext fun a => by match a with | ⟨0, _⟩ => rfl | ⟨1, _⟩ => rfl | ⟨2, _⟩ => rfl)

/-- Adding the unit batch axis back reads the tile at the two trailing coordinates. -/
theorem cast23_apply {α : Type} (y : S1024x1024.Idx → α) (d l : Fin 1024) :
    shapeCast S1x1024x1024 y shapeCasts_S1024x1024_S1x1024x1024 (ix3 (0 : Fin 1) d l) = y (ix2 d l) := by
  refine (shapeCast_addUnit_apply (![1024, 1024]) y shapeCasts_S1024x1024_S1x1024x1024 (ix3 (0 : Fin 1) d l)).trans ?_
  exact congrArg y (funext fun a => by match a with | ⟨0, _⟩ => rfl | ⟨1, _⟩ => rfl)

/-- A vector over positions viewed as one row. -/
theorem castRow_apply {α : Type} (r : S1024.Idx → α) (l : Fin 1024) :
    shapeCast S1x1024 r shapeCasts_S1024_S1x1024 (ix2 (0 : Fin 1) l) = r (ix1 l) := by
  refine (shapeCast_addUnit_apply (![1024]) r shapeCasts_S1024_S1x1024 (ix2 (0 : Fin 1) l)).trans ?_
  exact congrArg r (funext fun a => by match a with | ⟨0, _⟩ => rfl)

/-- A vector over rows viewed as one column. -/
theorem castCol_apply {α : Type} (r : S1024.Idx → α) (k : Fin 1024) :
    shapeCast S1024x1 r shapeCasts_S1024_S1024x1 (ix2 k (0 : Fin 1)) = r (ix1 k) := by
  refine shapeCast_apply r shapeCasts_S1024_S1024x1 (ix2 k (0 : Fin 1)) (ix1 k) ?_
  rw [Shape.rowMajor_val_one, Shape.rowMajor_val_two]
  show k.val = k.val * 1 + 0
  omega

/-- One row repeated down the tile. -/
theorem bcastRow_apply {α : Type} (v : S1x1024.Idx → α) (d l : Fin 1024) :
    broadcastTo S1024x1024 v broadcasts_S1x1024_S1024x1024 (ix2 d l) = v (ix2 (0 : Fin 1) l) :=
  broadcastTo_apply v broadcasts_S1x1024_S1024x1024 (ix2 d l) (ix2 (0 : Fin 1) l)
    (fun a => by match a with | ⟨0, _⟩ => rfl | ⟨1, _⟩ => rfl)

/-- One column repeated across the tile. -/
theorem bcastCol_apply {α : Type} (v : S1024x1.Idx → α) (k q : Fin 1024) :
    broadcastTo S1024x1024 v broadcasts_S1024x1_S1024x1024 (ix2 k q) = v (ix2 k (0 : Fin 1)) :=
  broadcastTo_apply v broadcasts_S1024x1_S1024x1024 (ix2 k q) (ix2 k (0 : Fin 1))
    (fun a => by match a with | ⟨0, _⟩ => rfl | ⟨1, _⟩ => rfl)

/-! ## Reductions over one axis of a tile -/

/-- The sum down a column. -/
theorem colSum_apply (Y : FVec Ideal S1024x1024 .f32) (l : Fin 1024) :
    multiReduction (F := Ideal) .add [0] S1024 Y 0x00000000#32 reduces_S1024x1024_S1024 (.inl rfl) rfl (ix1 l)
      = ∑ d : Fin 1024, Y (ix2 d l) := by
  refine (Ideal.multiReduction_add_single (φ := .f32) Y 0x00000000#32 reduces_S1024x1024_S1024 (.inl rfl) rfl (ix1 l)).trans ?_
  refine Finset.sum_congr rfl fun d _ => congrArg Y (funext fun a => Fin.ext ?_)
  match a with
  | ⟨0, _⟩ => rfl
  | ⟨1, _⟩ => rfl

/-- The sum along a row. -/
theorem rowSum_apply (Y : FVec Ideal S1024x1024 .f32) (k : Fin 1024) :
    multiReduction (F := Ideal) .add [1] S1024 Y 0x00000000#32 reduces_S1024x1024_S1024_2 (.inl rfl) rfl (ix1 k)
      = ∑ q : Fin 1024, Y (ix2 k q) := by
  refine (Ideal.multiReduction_add_single (φ := .f32) Y 0x00000000#32 reduces_S1024x1024_S1024_2 (.inl rfl) rfl (ix1 k)).trans ?_
  refine Finset.sum_congr rfl fun q _ => congrArg Y (funext fun a => Fin.ext ?_)
  match a with
  | ⟨0, _⟩ => rfl
  | ⟨1, _⟩ => rfl

/-- The word of minus infinity is the bottom element. -/
theorem negInf_eq_bot : Ideal.ofBits .f32 0xFF800000#32 = ⊥ := by
  simp [Ideal.ofBits, Ideal.ieee]

/-- The largest entry of a row, as the fold of the maximum from the bottom element. -/
theorem rowMax_apply (Y : FVec Ideal S1024x1024 .f32) (k : Fin 1024) :
    multiReduction (F := Ideal) .maximumf [1] S1024 Y 0xFF800000#32 reduces_S1024x1024_S1024_2 (.inl rfl) rfl (ix1 k)
      = rowMax fun q => Y (ix2 k q) := by
  refine (Ideal.multiReduction_maximumf_single (φ := .f32) Y 0xFF800000#32 reduces_S1024x1024_S1024_2 (.inl rfl) rfl (ix1 k)).trans ?_
  unfold rowMax
  rw [show FloatOps.ofBits (F := Ideal) .f32 0xFF800000#32 = ⊥ from negInf_eq_bot]
  refine congrArg (Finset.univ.fold max ⊥) (funext fun q => ?_)
  show Y _ = Y _
  refine congrArg Y (funext fun a => Fin.ext ?_)
  match a with
  | ⟨0, _⟩ => rfl
  | ⟨1, _⟩ => rfl

/-! ## The two contractions read at coordinates -/

abbrev dotA := dot_S1024x1024_S1024x1024_S1024x1024_1_0_0_1_n_n
abbrev dotB := dot_S1024x1024_S1024x1024_S1024x1024_0_0_1_1_n_n

theorem dotA_lhs0 (j : S1024x1024.Idx) (k : dotA.contr.Idx) : (dotA.lhsIdx j k 0).val = (j 0).val := by
  unfold DotDims.lhsIdx
  rw [dif_neg (show ¬(0 : Fin S1024x1024.rank) ∈ dotA.lhsBatch by decide), dif_pos (show (0 : Fin S1024x1024.rank) ∈ dotA.lhsNonContracting by decide)]
  rfl
theorem dotA_lhs1 (j : S1024x1024.Idx) (k : dotA.contr.Idx) : (dotA.lhsIdx j k 1).val = (k ⟨0, by decide⟩).val :=
  dotA.lhsIdx_val_of_single rfl j k
theorem dotA_rhs0 (j : S1024x1024.Idx) (k : dotA.contr.Idx) : (dotA.rhsIdx j k 0).val = (k ⟨0, by decide⟩).val :=
  dotA.rhsIdx_val_of_single rfl j k
theorem dotA_rhs1 (j : S1024x1024.Idx) (k : dotA.contr.Idx) : (dotA.rhsIdx j k 1).val = (j 1).val := by
  unfold DotDims.rhsIdx
  rw [dif_neg (show ¬(1 : Fin S1024x1024.rank) ∈ dotA.rhsBatch by decide), dif_pos (show (1 : Fin S1024x1024.rank) ∈ dotA.rhsNonContracting by decide)]
  rfl

/-- Rows of the left operand against columns of the right one. -/
theorem mmA_apply (W X : FVec Ideal S1024x1024 .bf16) (e l : Fin 1024) :
    matmul (F := Ideal) dotA none W X (constant S1024x1024 .f32 0x00000000#32) (ix2 e l)
      = ∑ d : Fin 1024, W (ix2 e d) * X (ix2 d l) := by
  refine (Ideal.matmul_constant_zero_apply dotA none W X (ix2 e l)).trans ?_
  rw [← Equiv.sum_comp (contrEquiv1 dotA 1024 rfl rfl).symm]
  refine Finset.sum_congr rfl fun d _ => ?_
  have hk := contrEquiv1_symm_val dotA 1024 rfl rfl d
  have el : dotA.lhsIdx (ix2 e l) ((contrEquiv1 dotA 1024 rfl rfl).symm d) = ix2 e d := funext fun a => Fin.ext (by
    match a with
    | ⟨0, _⟩ => exact dotA_lhs0 _ _
    | ⟨1, _⟩ => exact (dotA_lhs1 _ _).trans hk)
  have er : dotA.rhsIdx (ix2 e l) ((contrEquiv1 dotA 1024 rfl rfl).symm d) = ix2 d l := funext fun a => Fin.ext (by
    match a with
    | ⟨0, _⟩ => exact (dotA_rhs0 _ _).trans hk
    | ⟨1, _⟩ => exact dotA_rhs1 _ _)
  rw [el, er]

theorem dotB_lhs0 (j : S1024x1024.Idx) (k : dotB.contr.Idx) : (dotB.lhsIdx j k 0).val = (k ⟨0, by decide⟩).val :=
  dotB.lhsIdx_val_of_single rfl j k
theorem dotB_lhs1 (j : S1024x1024.Idx) (k : dotB.contr.Idx) : (dotB.lhsIdx j k 1).val = (j 0).val := by
  unfold DotDims.lhsIdx
  rw [dif_neg (show ¬(1 : Fin S1024x1024.rank) ∈ dotB.lhsBatch by decide), dif_pos (show (1 : Fin S1024x1024.rank) ∈ dotB.lhsNonContracting by decide)]
  rfl
theorem dotB_rhs0 (j : S1024x1024.Idx) (k : dotB.contr.Idx) : (dotB.rhsIdx j k 0).val = (k ⟨0, by decide⟩).val :=
  dotB.rhsIdx_val_of_single rfl j k
theorem dotB_rhs1 (j : S1024x1024.Idx) (k : dotB.contr.Idx) : (dotB.rhsIdx j k 1).val = (j 1).val := by
  unfold DotDims.rhsIdx
  rw [dif_neg (show ¬(1 : Fin S1024x1024.rank) ∈ dotB.rhsBatch by decide), dif_pos (show (1 : Fin S1024x1024.rank) ∈ dotB.rhsNonContracting by decide)]
  rfl

/-- Columns of the left operand against columns of the right one. -/
theorem mmB_apply (K Q : FVec Ideal S1024x1024 .bf16) (k q : Fin 1024) :
    matmul (F := Ideal) dotB none K Q (constant S1024x1024 .f32 0x00000000#32) (ix2 k q)
      = ∑ e : Fin 1024, K (ix2 e k) * Q (ix2 e q) := by
  refine (Ideal.matmul_constant_zero_apply dotB none K Q (ix2 k q)).trans ?_
  rw [← Equiv.sum_comp (contrEquiv1 dotB 1024 rfl rfl).symm]
  refine Finset.sum_congr rfl fun e _ => ?_
  have hk := contrEquiv1_symm_val dotB 1024 rfl rfl e
  have el : dotB.lhsIdx (ix2 k q) ((contrEquiv1 dotB 1024 rfl rfl).symm e) = ix2 e k := funext fun a => Fin.ext (by
    match a with
    | ⟨0, _⟩ => exact (dotB_lhs0 _ _).trans hk
    | ⟨1, _⟩ => exact dotB_lhs1 _ _)
  have er : dotB.rhsIdx (ix2 k q) ((contrEquiv1 dotB 1024 rfl rfl).symm e) = ix2 e q := funext fun a => Fin.ext (by
    match a with
    | ⟨0, _⟩ => exact (dotB_rhs0 _ _).trans hk
    | ⟨1, _⟩ => exact dotB_rhs1 _ _)
  rw [el, er]

/-! ## The recurring vector patterns, and what they are on tiles -/

/-- The word of one. -/
theorem one_eq : Ideal.ofBits .f32 0x3F800000#32 = 1 := by
  simp [Ideal.ofBits, Ideal.ieee, -EReal.coe_mul]; norm_num

/-- The word of zero, as a float operation's constant. -/
theorem zero_eq : FloatOps.ofBits (F := Ideal) .f32 0x00000000#32 = 0 := Ideal.ofBits_zero_f32

/-- Every column scaled by the reciprocal of its clamped norm, as the kernel spells it on vectors. -/
def nrmV (X : FVec Ideal S1024x1024 .f32) : FVec Ideal S1024x1024 .f32 :=
  mulf X (broadcastTo S1024x1024
    (divf (broadcast S1x1024 (Scalar.ofBits (F := Ideal) .f32 0x3F800000#32))
      (maximumf (sqrt (shapeCast S1x1024 (multiReduction .add [0] S1024 (mulf X X) 0x00000000#32 reduces_S1024x1024_S1024 (.inl rfl) rfl) shapeCasts_S1024_S1x1024))
        (broadcast S1x1024 (Scalar.ofBits (F := Ideal) .f32 0x2B8CBCCC#32))))
    broadcasts_S1x1024_S1024x1024)

theorem mat2_nrmV (X : FVec Ideal S1024x1024 .f32) : mat2 (nrmV X) = normMul (mat2 X) := by
  funext d l
  show X (ix2 d l) * broadcastTo S1024x1024 _ broadcasts_S1x1024_S1024x1024 (ix2 d l) = _
  rw [bcastRow_apply]
  show X (ix2 d l) * Ideal.div (Ideal.ofBits .f32 0x3F800000#32)
      (max (Ideal.sqrt (shapeCast S1x1024 _ shapeCasts_S1024_S1x1024 (ix2 (0 : Fin 1) l))) (Ideal.ofBits .f32 0x2B8CBCCC#32)) = _
  rw [castRow_apply, colSum_apply, one_eq]
  rfl

/-- A product of tiles into the zero accumulator, rows against columns. -/
def mmV (W X : FVec Ideal S1024x1024 .bf16) : FVec Ideal S1024x1024 .f32 :=
  matmul (F := Ideal) dotA none W X (constant S1024x1024 .f32 0x00000000#32)

/-- The same, columns against columns. -/
def mmTV (K Q : FVec Ideal S1024x1024 .bf16) : FVec Ideal S1024x1024 .f32 :=
  matmul (F := Ideal) dotB none K Q (constant S1024x1024 .f32 0x00000000#32)

/-- The rectifier against a splat of the zero word. -/
def reluV (A : FVec Ideal S1024x1024 .f32) : FVec Ideal S1024x1024 .f32 :=
  maximumf A (broadcast S1024x1024 (Scalar.ofBits (F := Ideal) .f32 0x00000000#32))

theorem mat2_relu_mmV (W X : FVec Ideal S1024x1024 .bf16) : mat2 (reluV (mmV W X)) = proj (mat2 W) (mat2 X) := by
  funext e l
  show max (mmV W X (ix2 e l)) (Ideal.ofBits .f32 0x00000000#32) = _
  rw [Ideal.ofBits_zero_f32]
  unfold mmV
  rw [mmA_apply]
  rfl

theorem mat2_mmV (W X : FVec Ideal S1024x1024 .bf16) : mat2 (mmV W X) = attend (mat2 W) (mat2 X) := by
  funext e l
  show mmV W X (ix2 e l) = _
  unfold mmV
  rw [mmA_apply]
  rfl

/-- The scores: the column product times a splat of the scale's word. -/
def scoreV (K Q : FVec Ideal S1024x1024 .bf16) : FVec Ideal S1024x1024 .f32 :=
  mulf (mmTV K Q) (broadcast S1024x1024 (Scalar.ofBits (F := Ideal) .f32 0x3D000000#32))

theorem mat2_scoreV (K Q : FVec Ideal S1024x1024 .bf16) : mat2 (scoreV K Q) = score scaleLit (mat2 K) (mat2 Q) := by
  funext k q
  show mmTV K Q (ix2 k q) * Ideal.ofBits .f32 0x3D000000#32 = _
  unfold mmTV
  rw [mmB_apply]
  rfl

/-- The exponentials of a tile's entries, each row shifted by its largest entry. -/
def expV (S : FVec Ideal S1024x1024 .f32) : FVec Ideal S1024x1024 .f32 :=
  exp (subf S (broadcastTo S1024x1024
    (shapeCast S1024x1 (multiReduction .maximumf [1] S1024 S 0xFF800000#32 reduces_S1024x1024_S1024_2 (.inl rfl) rfl) shapeCasts_S1024_S1024x1)
    broadcasts_S1024x1_S1024x1024))

theorem mat2_expV (S : FVec Ideal S1024x1024 .f32) : mat2 (expV S) = expShift (mat2 S) := by
  funext k q
  show Ideal.exp (S (ix2 k q) - broadcastTo S1024x1024 _ broadcasts_S1024x1_S1024x1024 (ix2 k q)) = _
  rw [bcastCol_apply, castCol_apply, rowMax_apply]
  rfl

/-- The softmax of every row, by the reciprocal of the row's sum. -/
def softV (S : FVec Ideal S1024x1024 .f32) : FVec Ideal S1024x1024 .f32 :=
  mulf (expV S) (broadcastTo S1024x1024
    (divf (broadcast S1024x1 (Scalar.ofBits (F := Ideal) .f32 0x3F800000#32))
      (shapeCast S1024x1 (multiReduction .add [1] S1024 (expV S) 0x00000000#32 reduces_S1024x1024_S1024_2 (.inl rfl) rfl) shapeCasts_S1024_S1024x1))
    broadcasts_S1024x1_S1024x1024)

theorem mat2_softV (S : FVec Ideal S1024x1024 .f32) : mat2 (softV S) = softMul (mat2 S) := by
  funext k q
  show expV S (ix2 k q) * broadcastTo S1024x1024 _ broadcasts_S1024x1_S1024x1024 (ix2 k q) = _
  rw [bcastCol_apply]
  show expV S (ix2 k q) * Ideal.div (Ideal.ofBits .f32 0x3F800000#32) (shapeCast S1024x1 _ shapeCasts_S1024_S1024x1 (ix2 k (0 : Fin 1))) = _
  rw [castCol_apply, rowSum_apply, one_eq]
  show mat2 (expV S) k q * Ideal.div 1 (∑ q' : Fin 1024, mat2 (expV S) k q') = _
  rw [mat2_expV]
  rfl

theorem mat2_addf (A B : FVec Ideal S1024x1024 .f32) : mat2 (addf A B) = fun d q => mat2 A d q + mat2 B d q := rfl

theorem mat2_cast32 (x : Vec Ideal S1x1024x1024 .f32) :
    mat2 (shapeCast S1024x1024 x shapeCasts_S1x1024x1024_S1024x1024) = blk3 x := by
  funext d l
  exact cast32_apply x d l

theorem blk3_cast23 (y : FVec Ideal S1024x1024 .f32) :
    blk3 (shapeCast S1x1024x1024 y shapeCasts_S1024x1024_S1x1024x1024) = mat2 y := by
  funext d l
  exact cast23_apply y d l

/-! ## The payloads on tiles -/

theorem pay1_mat (x0 : Vec Ideal S1x1024x1024 .f32) : mat2 (k0_pay1 x0) = blk3 x0 :=
  mat2_cast32 x0

theorem pay2_mat (x1 : Vec Ideal S1x1024x1024 .f32) : mat2 (k0_pay2 x1) = normMul (blk3 x1) := by
  show mat2 (nrmV (shapeCast S1024x1024 x1 shapeCasts_S1x1024x1024_S1024x1024)) = _
  rw [mat2_nrmV, mat2_cast32]

theorem pay3_mat (x0 : Vec Ideal S1x1024x1024 .f32) : mat2 (k0_pay3 x0) = blk3 x0 :=
  pay1_mat x0

theorem pay4_mat (x1 : Vec Ideal S1x1024x1024 .f32) : mat2 (k0_pay4 x1) = normMul (blk3 x1) :=
  pay2_mat x1

theorem pay5_eq (w : Vec Ideal S1024x1024 .bf16) : k0_pay5 w = w := shapeCast_self w _
theorem pay6_eq (w : Vec Ideal S1024x1024 .bf16) : k0_pay6 w = w := shapeCast_self w _
theorem pay7_eq (w : Vec Ideal S1024x1024 .bf16) : k0_pay7 w = w := shapeCast_self w _
theorem pay8_eq (w : Vec Ideal S1024x1024 .bf16) : k0_pay8 w = w := shapeCast_self w _

theorem pay9_mat (x0 : Vec Ideal S1x1024x1024 .f32) (w : Vec Ideal S1024x1024 .bf16) :
    mat2 (k0_pay9 x0 w) = proj (mat2 w) (blk3 x0) := by
  show mat2 (reluV (mmV (shapeCast S1024x1024 w shapeCasts_S1024x1024_S1024x1024) (k0_pay3 x0))) = _
  rw [shapeCast_self, mat2_relu_mmV, pay3_mat]

theorem pay10_mat (x1 : Vec Ideal S1x1024x1024 .f32) (w : Vec Ideal S1024x1024 .bf16) :
    mat2 (reluV (k0_pay10 x1 w)) = proj (mat2 w) (normMul (blk3 x1)) := by
  show mat2 (reluV (mmV (shapeCast S1024x1024 w shapeCasts_S1024x1024_S1024x1024) (k0_pay4 x1))) = _
  rw [shapeCast_self, mat2_relu_mmV, pay4_mat]

theorem pay12_mat (v1 : FVec Ideal S1024x1024 .f32) (v15 v21 v31 : FVec Ideal S1024x1024 .bf16) (v32 : FVec Ideal S1024x1024 .f32) :
    mat2 (k0_pay12 v1 v15 v21 v31 v32 (k0_pay11 (F := Ideal)))
      = normMul fun d q => mat2 v1 d q
          + attend (proj (mat2 v21) (mat2 v15)) (softMul (score scaleLit (mat2 (reluV v32)) (mat2 v31))) d q := by
  show mat2 (nrmV (addf v1 (mmV (reluV (mmV v21 v15)) (softV (scoreV (reluV v32) v31))))) = _
  rw [mat2_nrmV, mat2_addf, mat2_mmV, mat2_relu_mmV, mat2_softV, mat2_scoreV]

theorem pay13_mat (v15 v23 : FVec Ideal S1024x1024 .bf16) : mat2 (k0_pay13 v15 v23) = proj (mat2 v23) (mat2 v15) := by
  show mat2 (reluV (mmV v23 v15)) = _
  rw [mat2_relu_mmV]

theorem pay14_mat (v14 v25 : FVec Ideal S1024x1024 .bf16) : mat2 (k0_pay14 v14 v25) = proj (mat2 v25) (mat2 v14) := by
  show mat2 (reluV (mmV v25 v14)) = _
  rw [mat2_relu_mmV]

theorem pay15_mat (v14 v27 : FVec Ideal S1024x1024 .bf16) : mat2 (reluV (k0_pay15 v14 v27)) = proj (mat2 v27) (mat2 v14) := by
  show mat2 (reluV (mmV v27 v14)) = _
  rw [mat2_relu_mmV]

theorem pay17_mat (v13 v66 : FVec Ideal S1024x1024 .f32) (v70 v74 : FVec Ideal S1024x1024 .bf16) (v75 : FVec Ideal S1024x1024 .f32) :
    blk3 (k0_pay17 v13 v66 v70 v74 v75 (k0_pay16 (F := Ideal)))
      = normMul fun d q => mat2 v66 d q
          + normMul (fun d q => mat2 v13 d q
              + attend (mat2 (reluV v75)) (softMul (score scaleLit (mat2 v74) (mat2 v70))) d q) d q := by
  show blk3 (shapeCast S1x1024x1024 (nrmV (addf v66 (nrmV (addf v13 (mmV (reluV v75) (softV (scoreV v74 v70))))))) shapeCasts_S1024x1024_S1x1024x1024) = _
  rw [blk3_cast23, mat2_nrmV, mat2_addf, mat2_nrmV, mat2_addf, mat2_mmV, mat2_softV, mat2_scoreV]

/-! ## The block the body leaves -/

theorem hz3 : (![0, 0, 0] : Fin 3 → Nat) = fun _ => 0 := funext fun a => by fin_cases a <;> rfl
theorem hz2 : (![0, 0] : Fin 2 → Nat) = fun _ => 0 := funext fun a => by fin_cases a <;> rfl

/-- The one store covers the block, and every load reads a whole block. -/
theorem out_open (x0 x1 : Vec Ideal S1x1024x1024 .f32) (x2 x3 x4 x5 x6 x7 : Vec Ideal S1024x1024 .bf16) :
    out0_8 (F := Ideal) x0 x1 x2 x3 x4 x5 x6 x7 = k0_pay17 (k0_pay2 x1) (k0_pay12 (k0_pay1 x0) (k0_pay4 x1) (k0_pay5 x4) (k0_pay9 x0 x2) (k0_pay10 x1 x3) (k0_pay11 (F := Ideal))) (k0_pay13 (k0_pay4 x1) (k0_pay6 x5)) (k0_pay14 (k0_pay3 x0) (k0_pay7 x6)) (k0_pay15 (k0_pay3 x0) (k0_pay8 x7)) (k0_pay16 (F := Ideal)) := by
  unfold out0_8
  rw [View.canon_unit_zero hz3]
  simp only [View.ld_unit_zero (S := S1x1024x1024) hz3, View.ld_unit_zero (S := S1024x1024) hz2]

/-- A block read as a tile, at an entry. -/
theorem blk3_apply (X : S1x1024x1024.Idx → EReal) (d q : Fin 1024) : blk3 X d q = X (ix3 (0 : Fin 1) d q) := rfl

/-- The output block, entry by entry, is the two-sided cross attention of the input blocks. -/
theorem out_value (x0 x1 : Vec Ideal S1x1024x1024 .f32) (x2 x3 x4 x5 x6 x7 : Vec Ideal S1024x1024 .bf16) (d q : Fin 1024) :
    out0_8 (F := Ideal) x0 x1 x2 x3 x4 x5 x6 x7 (ix3 (0 : Fin 1) d q)
      = crossAttn normMul softMul scaleLit (blk3 x0) (blk3 x1) (mat2 x2) (mat2 x3) (mat2 x4) (mat2 x5) (mat2 x6) (mat2 x7) d q := by
  refine (blk3_apply (out0_8 (F := Ideal) x0 x1 x2 x3 x4 x5 x6 x7) d q).symm.trans ?_
  rw [out_open, pay17_mat, pay12_mat, pay2_mat, pay1_mat, pay4_mat, pay5_eq, pay6_eq, pay7_eq, pay8_eq, pay9_mat, pay10_mat,
    pay13_mat, pay14_mat, pay15_mat, pay3_mat, pay4_mat]
  rfl

end Cert.CrossAttn.Ker

end
-- ==== Proof.KerFinal.lean ====
/-
  The kernel's result array, from blocks to the whole array.

  The kernel runs over a grid of 16 points, one per batch element. At point `t` it is handed block
  `t` (one batch element, extent 1 × 1024 × 1024) of the two activation arrays and the six weight
  matrices whole, and writes back block `t` of the result. The weight matrices it is handed are the
  arguments narrowed to a shorter format before the grid is entered; over the extended reals narrowing
  changes no entry. Given that the body, applied to any blocks, computes the two-sided cross attention
  of those blocks entry by entry, the result array after all 16 points is, at index (b, d, q), the cross
  attention of batch element `b` of the two activation arrays and the six weight arguments at (d, q):
  the blocks written back are pairwise different batch elements and together they are the whole array.
-/
import proofs.«430962_j39101382263234_3_alg».proof.Proof.Spec
import proofs.«430962_j39101382263234_3_alg».proof.Proof.Gen.KernelIdeal.Value
import Idealize.ShloMosaic.Lib.Pipeline.Value
import Idealize.ShloMosaic.Lib.StableHlo.Run

noncomputable section

namespace Cert.CrossAttn.KerFinal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The result as one function of the argument arrays -/

/-- The result array: at index (b, d, q), the cross attention of batch element `b` of the two activation
    arguments and the six weight arguments, at feature `d` and position `q`. -/
def resultK (c : Dev nD) : S16x1024x1024.Idx → EReal := fun i =>
  crossAttn normMul softMul scaleLit
    (mat3 (m ((c : Thread nD τ).loc main_arg0)) (i 0)) (mat3 (m ((c : Thread nD τ).loc main_arg1)) (i 0))
    (mat2 (m ((c : Thread nD τ).loc main_arg2))) (mat2 (m ((c : Thread nD τ).loc main_arg3)))
    (mat2 (m ((c : Thread nD τ).loc main_arg4))) (mat2 (m ((c : Thread nD τ).loc main_arg5)))
    (mat2 (m ((c : Thread nD τ).loc main_arg6))) (mat2 (m ((c : Thread nD τ).loc main_arg7))) (i 1) (i 2)

/-- The result array at explicit coordinates. -/
theorem resultK_apply (c : Dev nD) (b : Fin 16) (d q : Fin 1024) :
    resultK m c (ix3 b d q) = crossAttn normMul softMul scaleLit
      (mat3 (m ((c : Thread nD τ).loc main_arg0)) b) (mat3 (m ((c : Thread nD τ).loc main_arg1)) b)
      (mat2 (m ((c : Thread nD τ).loc main_arg2))) (mat2 (m ((c : Thread nD τ).loc main_arg3)))
      (mat2 (m ((c : Thread nD τ).loc main_arg4))) (mat2 (m ((c : Thread nD τ).loc main_arg5)))
      (mat2 (m ((c : Thread nD τ).loc main_arg6))) (mat2 (m ((c : Thread nD τ).loc main_arg7))) d q := rfl

/-! ## The block indices, decided once over the 16 points -/

/-- The first activation's block at point `t` is batch element `t`, at offset zero on the other two axes. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The second activation's block at point `t` is batch element `t`. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
/-- The result's block at point `t` is batch element `t`. -/
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
/-- Each weight matrix is handed over whole at every point: its block index is zero on both axes. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

/-! ## The blocks the body is handed at a point -/

/-- The batch element a grid point works on. -/
abbrev bat (t : Fin cfg0.N) : Fin 16 := ⟨t.val, lt_of_lt_of_eq t.isLt N_0⟩

/-- The two activation blocks and the six weight blocks at point `t`, each at its literal type. -/
abbrev vblk (c : Dev nD) (t : Fin cfg0.N) : Vec Ideal S1x1024x1024 .f32 := iblk m c 0 t
abbrev tblk (c : Dev nD) (t : Fin cfg0.N) : Vec Ideal S1x1024x1024 .f32 := iblk m c 1 t
abbrev wblk2 (c : Dev nD) (t : Fin cfg0.N) : Vec Ideal S1024x1024 .bf16 := iblk m c 2 t
abbrev wblk3 (c : Dev nD) (t : Fin cfg0.N) : Vec Ideal S1024x1024 .bf16 := iblk m c 3 t
abbrev wblk4 (c : Dev nD) (t : Fin cfg0.N) : Vec Ideal S1024x1024 .bf16 := iblk m c 4 t
abbrev wblk5 (c : Dev nD) (t : Fin cfg0.N) : Vec Ideal S1024x1024 .bf16 := iblk m c 5 t
abbrev wblk6 (c : Dev nD) (t : Fin cfg0.N) : Vec Ideal S1024x1024 .bf16 := iblk m c 6 t
abbrev wblk7 (c : Dev nD) (t : Fin cfg0.N) : Vec Ideal S1024x1024 .bf16 := iblk m c 7 t

/-- Entry (0, d, l) of the first activation's block at point `t` is entry (t, d, l) of the first argument:
    on each axis the array coordinate is the block index times the block's extent plus the coordinate inside. -/
theorem vblk_apply (c : Dev nD) (t : Fin cfg0.N) (d l : Fin 1024) :
    vblk m c t (ix3 (0 : Fin 1) d l) = (m ((c : Thread nD τ).loc main_arg0) : S16x1024x1024.Idx → EReal) (ix3 (bat t) d l) := by
  obtain ⟨e0, e1, e2⟩ := idx0 t
  unfold vblk iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val; omega
  | ⟨1, _⟩ => show win0_0.index t (1 : Fin 3) * 1024 + 1 * d.val = d.val; omega
  | ⟨2, _⟩ => show win0_0.index t (2 : Fin 3) * 1024 + 1 * l.val = l.val; omega

/-- Entry (0, d, l) of the second activation's block at point `t` is entry (t, d, l) of the second argument. -/
theorem tblk_apply (c : Dev nD) (t : Fin cfg0.N) (d l : Fin 1024) :
    tblk m c t (ix3 (0 : Fin 1) d l) = (m ((c : Thread nD τ).loc main_arg1) : S16x1024x1024.Idx → EReal) (ix3 (bat t) d l) := by
  obtain ⟨e0, e1, e2⟩ := idx1 t
  unfold tblk iblk
  rw [View.read_apply]
  show V m c main_arg1 _ = m ((c : Thread nD τ).loc main_arg1) _
  rw [V_main_arg1]
  congr 1
  funext a
  apply Fin.ext
  match a with
  | ⟨0, _⟩ => show win0_1.index t (0 : Fin 3) * 1 + 1 * 0 = t.val; omega
  | ⟨1, _⟩ => show win0_1.index t (1 : Fin 3) * 1024 + 1 * d.val = d.val; omega
  | ⟨2, _⟩ => show win0_1.index t (2 : Fin 3) * 1024 + 1 * l.val = l.val; omega

/-! The narrowed weight matrices the grid finds: each is the narrowing of its argument, written before the grid is entered. -/

theorem V_main_v0 (c : Dev nD) : (V m c main_v0 : S1024x1024.Idx → EReal)
    = (truncf .bf16 (m ((c : Thread nD τ).loc main_arg2) : FVec Ideal S1024x1024 .f32) bitsLt_bf16_f32 : FVec Ideal S1024x1024 .bf16) := by
  dsimp only [Gen.V, Gen.hostOps0]
  after_results
theorem V_main_v1 (c : Dev nD) : (V m c main_v1 : S1024x1024.Idx → EReal)
    = (truncf .bf16 (m ((c : Thread nD τ).loc main_arg3) : FVec Ideal S1024x1024 .f32) bitsLt_bf16_f32 : FVec Ideal S1024x1024 .bf16) := by
  dsimp only [Gen.V, Gen.hostOps0]
  after_results
theorem V_main_v2 (c : Dev nD) : (V m c main_v2 : S1024x1024.Idx → EReal)
    = (truncf .bf16 (m ((c : Thread nD τ).loc main_arg4) : FVec Ideal S1024x1024 .f32) bitsLt_bf16_f32 : FVec Ideal S1024x1024 .bf16) := by
  dsimp only [Gen.V, Gen.hostOps0]
  after_results
theorem V_main_v3 (c : Dev nD) : (V m c main_v3 : S1024x1024.Idx → EReal)
    = (truncf .bf16 (m ((c : Thread nD τ).loc main_arg5) : FVec Ideal S1024x1024 .f32) bitsLt_bf16_f32 : FVec Ideal S1024x1024 .bf16) := by
  dsimp only [Gen.V, Gen.hostOps0]
  after_results
theorem V_main_v4 (c : Dev nD) : (V m c main_v4 : S1024x1024.Idx → EReal)
    = (truncf .bf16 (m ((c : Thread nD τ).loc main_arg6) : FVec Ideal S1024x1024 .f32) bitsLt_bf16_f32 : FVec Ideal S1024x1024 .bf16) := by
  dsimp only [Gen.V, Gen.hostOps0]
  after_results
theorem V_main_v5 (c : Dev nD) : (V m c main_v5 : S1024x1024.Idx → EReal)
    = (truncf .bf16 (m ((c : Thread nD τ).loc main_arg7) : FVec Ideal S1024x1024 .f32) bitsLt_bf16_f32 : FVec Ideal S1024x1024 .bf16) := by
  dsimp only [Gen.V, Gen.hostOps0]
  after_results

/-- Entry (a, b) of a weight block at any point is entry (a, b) of the weight argument: the block is the whole
    narrowed matrix, and narrowing keeps every entry. -/
theorem wblk2_apply (c : Dev nD) (t : Fin cfg0.N) (a b : Fin 1024) :
    wblk2 m c t (ix2 a b) = (m ((c : Thread nD τ).loc main_arg2) : S1024x1024.Idx → EReal) (ix2 a b) := by
  obtain ⟨e0, e1⟩ := idx2 t
  unfold wblk2 iblk
  rw [View.read_apply]
  show (V m c main_v0 : S1024x1024.Idx → EReal) _ = _
  rw [V_main_v0]
  show (m ((c : Thread nD τ).loc main_arg2) : S1024x1024.Idx → EReal) _ = _
  congr 1
  funext x
  apply Fin.ext
  match x with
  | ⟨0, _⟩ => show win0_2.index t (0 : Fin 2) * 1024 + 1 * a.val = a.val; omega
  | ⟨1, _⟩ => show win0_2.index t (1 : Fin 2) * 1024 + 1 * b.val = b.val; omega
theorem wblk3_apply (c : Dev nD) (t : Fin cfg0.N) (a b : Fin 1024) :
    wblk3 m c t (ix2 a b) = (m ((c : Thread nD τ).loc main_arg3) : S1024x1024.Idx → EReal) (ix2 a b) := by
  obtain ⟨e0, e1⟩ := idx3 t
  unfold wblk3 iblk
  rw [View.read_apply]
  show (V m c main_v1 : S1024x1024.Idx → EReal) _ = _
  rw [V_main_v1]
  show (m ((c : Thread nD τ).loc main_arg3) : S1024x1024.Idx → EReal) _ = _
  congr 1
  funext x
  apply Fin.ext
  match x with
  | ⟨0, _⟩ => show win0_3.index t (0 : Fin 2) * 1024 + 1 * a.val = a.val; omega
  | ⟨1, _⟩ => show win0_3.index t (1 : Fin 2) * 1024 + 1 * b.val = b.val; omega
theorem wblk4_apply (c : Dev nD) (t : Fin cfg0.N) (a b : Fin 1024) :
    wblk4 m c t (ix2 a b) = (m ((c : Thread nD τ).loc main_arg4) : S1024x1024.Idx → EReal) (ix2 a b) := by
  obtain ⟨e0, e1⟩ := idx4 t
  unfold wblk4 iblk
  rw [View.read_apply]
  show (V m c main_v2 : S1024x1024.Idx → EReal) _ = _
  rw [V_main_v2]
  show (m ((c : Thread nD τ).loc main_arg4) : S1024x1024.Idx → EReal) _ = _
  congr 1
  funext x
  apply Fin.ext
  match x with
  | ⟨0, _⟩ => show win0_4.index t (0 : Fin 2) * 1024 + 1 * a.val = a.val; omega
  | ⟨1, _⟩ => show win0_4.index t (1 : Fin 2) * 1024 + 1 * b.val = b.val; omega
theorem wblk5_apply (c : Dev nD) (t : Fin cfg0.N) (a b : Fin 1024) :
    wblk5 m c t (ix2 a b) = (m ((c : Thread nD τ).loc main_arg5) : S1024x1024.Idx → EReal) (ix2 a b) := by
  obtain ⟨e0, e1⟩ := idx5 t
  unfold wblk5 iblk
  rw [View.read_apply]
  show (V m c main_v3 : S1024x1024.Idx → EReal) _ = _
  rw [V_main_v3]
  show (m ((c : Thread nD τ).loc main_arg5) : S1024x1024.Idx → EReal) _ = _
  congr 1
  funext x
  apply Fin.ext
  match x with
  | ⟨0, _⟩ => show win0_5.index t (0 : Fin 2) * 1024 + 1 * a.val = a.val; omega
  | ⟨1, _⟩ => show win0_5.index t (1 : Fin 2) * 1024 + 1 * b.val = b.val; omega
theorem wblk6_apply (c : Dev nD) (t : Fin cfg0.N) (a b : Fin 1024) :
    wblk6 m c t (ix2 a b) = (m ((c : Thread nD τ).loc main_arg6) : S1024x1024.Idx → EReal) (ix2 a b) := by
  obtain ⟨e0, e1⟩ := idx6 t
  unfold wblk6 iblk
  rw [View.read_apply]
  show (V m c main_v4 : S1024x1024.Idx → EReal) _ = _
  rw [V_main_v4]
  show (m ((c : Thread nD τ).loc main_arg6) : S1024x1024.Idx → EReal) _ = _
  congr 1
  funext x
  apply Fin.ext
  match x with
  | ⟨0, _⟩ => show win0_6.index t (0 : Fin 2) * 1024 + 1 * a.val = a.val; omega
  | ⟨1, _⟩ => show win0_6.index t (1 : Fin 2) * 1024 + 1 * b.val = b.val; omega
theorem wblk7_apply (c : Dev nD) (t : Fin cfg0.N) (a b : Fin 1024) :
    wblk7 m c t (ix2 a b) = (m ((c : Thread nD τ).loc main_arg7) : S1024x1024.Idx → EReal) (ix2 a b) := by
  obtain ⟨e0, e1⟩ := idx7 t
  unfold wblk7 iblk
  rw [View.read_apply]
  show (V m c main_v5 : S1024x1024.Idx → EReal) _ = _
  rw [V_main_v5]
  show (m ((c : Thread nD τ).loc main_arg7) : S1024x1024.Idx → EReal) _ = _
  congr 1
  funext x
  apply Fin.ext
  match x with
  | ⟨0, _⟩ => show win0_7.index t (0 : Fin 2) * 1024 + 1 * a.val = a.val; omega
  | ⟨1, _⟩ => show win0_7.index t (1 : Fin 2) * 1024 + 1 * b.val = b.val; omega

/-! The same as tiles: an activation block is its batch element's tile, a weight block is the weight argument's tile. -/

theorem blk3_vblk (c : Dev nD) (t : Fin cfg0.N) : blk3 (vblk m c t) = mat3 (m ((c : Thread nD τ).loc main_arg0)) (bat t) :=
  funext fun d => funext fun l => vblk_apply m c t d l
theorem blk3_tblk (c : Dev nD) (t : Fin cfg0.N) : blk3 (tblk m c t) = mat3 (m ((c : Thread nD τ).loc main_arg1)) (bat t) :=
  funext fun d => funext fun l => tblk_apply m c t d l
theorem mat2_wblk2 (c : Dev nD) (t : Fin cfg0.N) : mat2 (wblk2 m c t) = mat2 (m ((c : Thread nD τ).loc main_arg2)) :=
  funext fun a => funext fun b => wblk2_apply m c t a b
theorem mat2_wblk3 (c : Dev nD) (t : Fin cfg0.N) : mat2 (wblk3 m c t) = mat2 (m ((c : Thread nD τ).loc main_arg3)) :=
  funext fun a => funext fun b => wblk3_apply m c t a b
theorem mat2_wblk4 (c : Dev nD) (t : Fin cfg0.N) : mat2 (wblk4 m c t) = mat2 (m ((c : Thread nD τ).loc main_arg4)) :=
  funext fun a => funext fun b => wblk4_apply m c t a b
theorem mat2_wblk5 (c : Dev nD) (t : Fin cfg0.N) : mat2 (wblk5 m c t) = mat2 (m ((c : Thread nD τ).loc main_arg5)) :=
  funext fun a => funext fun b => wblk5_apply m c t a b
theorem mat2_wblk6 (c : Dev nD) (t : Fin cfg0.N) : mat2 (wblk6 m c t) = mat2 (m ((c : Thread nD τ).loc main_arg6)) :=
  funext fun a => funext fun b => wblk6_apply m c t a b
theorem mat2_wblk7 (c : Dev nD) (t : Fin cfg0.N) : mat2 (wblk7 m c t) = mat2 (m ((c : Thread nD τ).loc main_arg7)) :=
  funext fun a => funext fun b => wblk7_apply m c t a b

/-! ## What a point writes back -/

section
variable (hout : ∀ (x0 x1 : Vec Ideal S1x1024x1024 .f32) (x2 x3 x4 x5 x6 x7 : Vec Ideal S1024x1024 .bf16) (d q : Fin 1024),
    out0_8 (F := Ideal) x0 x1 x2 x3 x4 x5 x6 x7 (ix3 (0 : Fin 1) d q)
      = crossAttn normMul softMul scaleLit (blk3 x0) (blk3 x1) (mat2 x2) (mat2 x3) (mat2 x4) (mat2 x5) (mat2 x6) (mat2 x7) d q)
include hout

/-- The body's result on the blocks at point `t`, at (0, d, q), is the result array at (t, d, q). -/
theorem out_at (c : Dev nD) (t : Fin cfg0.N) (d q : Fin 1024) :
    out0_8 (F := Ideal) (vblk m c t) (tblk m c t) (wblk2 m c t) (wblk3 m c t) (wblk4 m c t) (wblk5 m c t) (wblk6 m c t) (wblk7 m c t) (ix3 (0 : Fin 1) d q)
      = resultK m c (ix3 (bat t) d q) := by
  refine (hout (vblk m c t) (tblk m c t) (wblk2 m c t) (wblk3 m c t) (wblk4 m c t) (wblk5 m c t) (wblk6 m c t) (wblk7 m c t) d q).trans ?_
  rw [resultK_apply, blk3_vblk m c t, blk3_tblk m c t, mat2_wblk2 m c t, mat2_wblk3 m c t, mat2_wblk4 m c t, mat2_wblk5 m c t,
    mat2_wblk6 m c t, mat2_wblk7 m c t]

/-- What point `t` writes back is block `t` of the result array. -/
theorem flushed_eq (c : Dev nD) (t : Fin cfg0.N) :
    (dats m 0 c).flushed 8 t = ((cfg0.win 8).blk t).view.read (Elt Ideal) (resultK m c) := by
  rw [Cert.KernelIdeal.Value.flushed8]
  obtain ⟨e0, e1, e2⟩ := idx8 t
  funext y
  have h0 : (y 0).val < 1 := (y 0).isLt
  have h1 : (y 1).val < 1024 := (y 1).isLt
  have h2 : (y 2).val < 1024 := (y 2).isLt
  have ey : (cfg0.win 8).xinj (grid0.coords t) y = ix3 (0 : Fin 1) (⟨(y 1).val, h1⟩ : Fin 1024) (⟨(y 2).val, h2⟩ : Fin 1024) := by
    funext a
    apply Fin.ext
    match a with
    | ⟨0, _⟩ => show (y 0).val = 0; omega
    | ⟨1, _⟩ => rfl
    | ⟨2, _⟩ => rfl
  have ei : ((cfg0.win 8).blk t).view.emb y = ix3 (bat t) (⟨(y 1).val, h1⟩ : Fin 1024) (⟨(y 2).val, h2⟩ : Fin 1024) := by
    funext a
    apply Fin.ext
    match a with
    | ⟨0, _⟩ => show win0_8.index t (0 : Fin 3) * 1 + 1 * (y 0).val = t.val; omega
    | ⟨1, _⟩ => show win0_8.index t (1 : Fin 3) * 1024 + 1 * (y 1).val = (y 1).val; omega
    | ⟨2, _⟩ => show win0_8.index t (2 : Fin 3) * 1024 + 1 * (y 2).val = (y 2).val; omega
  show out0_8 (F := Ideal) (vblk m c t) (tblk m c t) (wblk2 m c t) (wblk3 m c t) (wblk4 m c t) (wblk5 m c t) (wblk6 m c t) (wblk7 m c t)
      ((cfg0.win 8).xinj (grid0.coords t) y) = resultK m c (((cfg0.win 8).blk t).view.emb y)
  exact ((congrArg (out0_8 (F := Ideal) (vblk m c t) (tblk m c t) (wblk2 m c t) (wblk3 m c t) (wblk4 m c t) (wblk5 m c t) (wblk6 m c t) (wblk7 m c t)) ey).trans
    (out_at m hout c t _ _)).trans (congrArg (resultK m c) ei.symm)

/-! ## The blocks cover the array -/

omit hout in
/-- An index of the result array is in point `t`'s block iff each coordinate is in the block's range on its axis. -/
theorem mem_blk8 (t : Fin cfg0.N) (i : S16x1024x1024.Idx) :
    i ∈ ((cfg0.win 8).blk t).view.set ↔ ∀ a : Fin 3, win0_8.index t a * S1x1024x1024.size a ≤ (i a).val
      ∧ (i a).val < win0_8.index t a * S1x1024x1024.size a + S1x1024x1024.size a := by
  show i ∈ ((View.whole main_v6).slice (win0_8.rect t)).set ↔ _
  rw [View.set_slice_whole, Rect.mem_set_unit]
  exact Iff.rfl

omit hout in
/-- Every index (b, d, q) of the result array lies in the block of the point that works on batch element `b`. -/
theorem cover8 (i : S16x1024x1024.Idx) : ∃ t : Fin cfg0.N, (cfg0.win 8).flush t = true ∧ i ∈ ((cfg0.win 8).blk t).view.set := by
  have h0 : (i 0).val < 16 := (i 0).isLt
  have h1 : (i 1).val < 1024 := (i 1).isLt
  have h2 : (i 2).val < 1024 := (i 2).isLt
  have hN : (i 0).val < cfg0.N := lt_of_lt_of_eq h0 N_0.symm
  obtain ⟨e0, e1, e2⟩ := idx8 ⟨(i 0).val, hN⟩
  have e0' : win0_8.index ⟨(i 0).val, hN⟩ (0 : Fin 3) = (i 0).val := e0
  refine ⟨⟨(i 0).val, hN⟩, flush0_8 _, ?_⟩
  rw [mem_blk8]
  intro a
  match a with
  | ⟨0, _⟩ =>
    show win0_8.index ⟨(i 0).val, hN⟩ (0 : Fin 3) * 1 ≤ (i 0).val ∧ (i 0).val < win0_8.index ⟨(i 0).val, hN⟩ (0 : Fin 3) * 1 + 1
    omega
  | ⟨1, _⟩ =>
    show win0_8.index ⟨(i 0).val, hN⟩ (1 : Fin 3) * 1024 ≤ (i 1).val ∧ (i 1).val < win0_8.index ⟨(i 0).val, hN⟩ (1 : Fin 3) * 1024 + 1024
    omega
  | ⟨2, _⟩ =>
    show win0_8.index ⟨(i 0).val, hN⟩ (2 : Fin 3) * 1024 ≤ (i 2).val ∧ (i 2).val < win0_8.index ⟨(i 0).val, hN⟩ (2 : Fin 3) * 1024 + 1024
    omega

/-! ## The array after the run -/

/-- After all 16 points the result array is `resultK` of the argument arrays. -/
theorem final8 (c : Dev nD) : (dats m 0 c).arrAt 8 cfg0.N = resultK m c :=
  (dats m 0 c).arrAt_eq_of_cover 8 (resultK m c) (fun t _ => flushed_eq m hout c t) cover8

/-- The run: the result array holds the cross attention of the arguments batch element by batch element, and the
    eight arguments are as launched. -/
theorem kernel_run :
    θ_run defs (onTc (τ := τ) (main (F := Ideal))) ⟨m, fun _ => 0, ρ⟩ fun r => ∀ c : Dev nD,
      r.2.mem ((c : Thread nD τ).loc main_v6) = resultK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m hout c), (h c).2⟩) (Cert.KernelIdeal.Value.run_blocks m ρ)

end

end Cert.CrossAttn.KerFinal

end
-- ==== Proof.RefSide.lean ====
/-
  The reference program's value, element by element, as the two-sided cross attention over tiles.

  The program works on arrays of extent 16 × 1024 × 1024 and, between its transposes, in the layout
  [batch, position, feature]. It is built from five pieces, each used several times: the column normalization,
  the rectified projection by a weight, the scaled scores, the softmax over the query axis, and one side (the
  residual plus the attended values). The pieces are written here over arbitrary operand arrays in the program's own
  operations; each is read at coordinates (batch, row, column) and shown to be the corresponding operation on the
  batch element's tile; the program is the pieces composed, so its value at (b, d, q) is the tiles' cross attention
  at (d, q).

  Reading an operation at coordinates uses: a broadcast reads its operand at the kept coordinates; a transpose swaps
  the last two; a contraction over one axis is the sum over that axis's coordinate of the products; a sum over the
  middle axis is the initial value plus the sum over that coordinate; a maximum over the middle axis from minus
  infinity is the fold of the maximum from the lattice's bottom.
-/
import proofs.«430962_j39101382263234_3_alg».proof.Proof.Spec
import proofs.«430962_j39101382263234_3_alg».proof.Proof.RefRead
import Idealize.ShloMosaic.Lib.Pipeline.Value
import Idealize.ShloMosaic.Lib.ValueIdx
import Idealize.ShloMosaic.PureOps.Ideal.Laws
import Idealize.ShloMosaic.PureOps.Reduce

noncomputable section

namespace Cert.CrossAttn.Ref

open Cert.CrossAttn Cert.ReferenceIdeal Cert.ReferenceIdeal.Gen Idealize.ShloMosaic Idealize.ShloMosaic.ValueIdx

/-- Arrays of the program's shapes over the extended reals. -/
abbrev A3 : Type := FVec Ideal S16x1024x1024 .f32
abbrev A2 : Type := FVec Ideal S1024x1024 .f32
abbrev R2 : Type := FVec Ideal S16x1024 .f32
abbrev K3 : Type := FVec Ideal S16x1x1024 .f32
abbrev A0 : Type := FVec Ideal S_ .f32

abbrev D1 := dot_S16x1024x1024_S1024x1024_S16x1024x1024_2_1_01_0_n_n
abbrev D2 := dot_S16x1024x1024_S16x1024x1024_S16x1024x1024_2_2_1_1_0_0
abbrev D3 := dot_S16x1024x1024_S16x1024x1024_S16x1024x1024_2_1_1_2_0_0

/-! ## Layout operations at coordinates -/

theorem bcastUnit_at (y : R2) (b : Fin 16) (q : Fin 1024) :
    broadcastInDim S16x1x1024 ![0, 2] bcast_S16x1024_S16x1x1024_0_2 y (ix3 b (0 : Fin 1) q) = y (ix2 b q) :=
  broadcastInDim_apply _ bcast_S16x1024_S16x1x1024_0_2 y (ix3 b 0 q) (ix2 b q) (fun a => match a with
    | ⟨0, _⟩ => by show b.val = if (16 : Nat) = 1 then 0 else b.val; rw [if_neg (by decide)]
    | ⟨1, _⟩ => by show q.val = if (1024 : Nat) = 1 then 0 else q.val; rw [if_neg (by decide)])

theorem bcastRows_at (y : K3) (b : Fin 16) (d q : Fin 1024) :
    broadcastInDim S16x1024x1024 ![0, 1, 2] bcast_S16x1x1024_S16x1024x1024_0_1_2 y (ix3 b d q) = y (ix3 b (0 : Fin 1) q) :=
  broadcastInDim_apply _ bcast_S16x1x1024_S16x1024x1024_0_1_2 y (ix3 b d q) (ix3 b 0 q) (fun a => match a with
    | ⟨0, _⟩ => by show b.val = if (16 : Nat) = 1 then 0 else b.val; rw [if_neg (by decide)]
    | ⟨1, _⟩ => by show 0 = if (1 : Nat) = 1 then 0 else d.val; rw [if_pos rfl]
    | ⟨2, _⟩ => by show q.val = if (1024 : Nat) = 1 then 0 else q.val; rw [if_neg (by decide)])

theorem bcastScalar3_at (y : A0) (i : S16x1024x1024.Idx) :
    broadcastInDim S16x1024x1024 ![] bcast_S_S16x1024x1024 y i = y ix0 :=
  broadcastInDim_apply _ bcast_S_S16x1024x1024 y i ix0 (fun a => a.elim0)

theorem bcastScalarK_at (y : A0) (i : S16x1x1024.Idx) :
    broadcastInDim S16x1x1024 ![] bcast_S_S16x1x1024 y i = y ix0 :=
  broadcastInDim_apply _ bcast_S_S16x1x1024 y i ix0 (fun a => a.elim0)

theorem bcastScalarR_at (y : A0) (i : S16x1024.Idx) :
    broadcastInDim S16x1024 ![] bcast_S_S16x1024 y i = y ix0 :=
  broadcastInDim_apply _ bcast_S_S16x1024 y i ix0 (fun a => a.elim0)

theorem transpose_at (X : A3) (b : Fin 16) (l e : Fin 1024) :
    transpose S16x1024x1024 [0, 2, 1] X transposes_S16x1024x1024_S16x1024x1024_0_2_1 (ix3 b l e) = X (ix3 b e l) :=
  transpose_apply [0, 2, 1] X transposes_S16x1024x1024_S16x1024x1024_0_2_1 (ix3 b l e) (ix3 b e l) (fun c => match c with
    | ⟨0, _⟩ => rfl
    | ⟨1, _⟩ => rfl
    | ⟨2, _⟩ => rfl)

/-! ## Reductions over the middle axis at coordinates -/

theorem sumRows_at (X : A3) (init : A0) (b : Fin 16) (q : Fin 1024) :
    Host.reduceAdd (F := Ideal) X init reducesTo_S16x1024x1024_S16x1024_d1 h_S_ (ix2 b q) = init ix0 + ∑ k : Fin 1024, X (ix3 b k q) := by
  simp only [Host.reduceAdd, Ideal.hostReduceAdd_def]
  rw [Ideal.hostReduceAdd_single reducesTo_S16x1024x1024_S16x1024_d1 (by decide)]
  refine congrArg₂ (· + ·) (congrArg init (eq_ix0 _)) (Finset.sum_congr rfl fun k _ => ?_)
  exact congrArg X (funext fun a => Fin.ext (by match a with | ⟨0, _⟩ => rfl | ⟨1, _⟩ => rfl | ⟨2, _⟩ => rfl))

theorem negInf_f32 : Ideal.ofBits .f32 0xFF800000#32 = (⊥ : EReal) := by
  simp [Ideal.ofBits, Ideal.ieee]

theorem maxRows_at (X : A3) (b : Fin 16) (q : Fin 1024) :
    Host.reduce (FloatOps.maximumf (F := Ideal) (φ := .f32)) X (constant (F := Ideal) S_ .f32 0xFF800000#32) reducesTo_S16x1024x1024_S16x1024_d1 h_S_ (ix2 b q)
      = rowMax fun k => X (ix3 b k q) := by
  have hr : S16x1024x1024.Reduces [1] S16x1024 := by decide
  rw [Host.reduce_eq_fold_single (FloatOps.maximumf (F := Ideal) (φ := .f32)) X _ reducesTo_S16x1024x1024_S16x1024_d1 hr h_S_]
  have hf : (X ∘ hr.lift (ix2 b q)) = fun k : Fin 1024 => X (ix3 b k q) :=
    funext fun k => congrArg X (funext fun a => Fin.ext (by match a with | ⟨0, _⟩ => rfl | ⟨1, _⟩ => rfl | ⟨2, _⟩ => rfl))
  rw [hf]
  show Finset.fold max (Ideal.ofBits .f32 0xFF800000#32) (fun k : Fin 1024 => X (ix3 b k q)) Finset.univ = _
  rw [negInf_f32]
  rfl

/-! ## The three contractions at coordinates

Each product contracts one axis. The operand indices at a result index and a contraction position are read off
coordinate by coordinate: a batch or free axis reads the result index, the contracted axis the position. -/

theorem d1_lhs0 (i : S16x1024x1024.Idx) (q : D1.contr.Idx) : (D1.lhsIdx i q 0).val = (i 0).val := by
  unfold DotDims.lhsIdx
  rw [dif_neg (show ¬(0 : Fin S16x1024x1024.rank) ∈ D1.lhsBatch by decide),
    dif_pos (show (0 : Fin S16x1024x1024.rank) ∈ D1.lhsNonContracting by decide)]
  rfl
theorem d1_lhs1 (i : S16x1024x1024.Idx) (q : D1.contr.Idx) : (D1.lhsIdx i q 1).val = (i 1).val := by
  unfold DotDims.lhsIdx
  rw [dif_neg (show ¬(1 : Fin S16x1024x1024.rank) ∈ D1.lhsBatch by decide),
    dif_pos (show (1 : Fin S16x1024x1024.rank) ∈ D1.lhsNonContracting by decide)]
  rfl
theorem d1_lhs2 (i : S16x1024x1024.Idx) (q : D1.contr.Idx) : (D1.lhsIdx i q 2).val = (q ⟨0, by decide⟩).val :=
  D1.lhsIdx_val_of_single rfl i q
theorem d1_rhs0 (i : S16x1024x1024.Idx) (q : D1.contr.Idx) : (D1.rhsIdx i q 0).val = (i 2).val := by
  unfold DotDims.rhsIdx
  rw [dif_neg (show ¬(0 : Fin S1024x1024.rank) ∈ D1.rhsBatch by decide),
    dif_pos (show (0 : Fin S1024x1024.rank) ∈ D1.rhsNonContracting by decide)]
  rfl
theorem d1_rhs1 (i : S16x1024x1024.Idx) (q : D1.contr.Idx) : (D1.rhsIdx i q 1).val = (q ⟨0, by decide⟩).val :=
  D1.rhsIdx_val_of_single rfl i q

/-- A [batch, position, feature] array times a [feature-out, feature] weight, contracted over the feature axis. -/
theorem dotW_at (L : A3) (W : A2) (b : Fin 16) (l e : Fin 1024) :
    Host.dotGeneral (F := Ideal) D1 none L W (ix3 b l e) = ∑ k : Fin 1024, L (ix3 b l k) * W (ix2 e k) := by
  simp only [Host.dotGeneral]
  rw [Ideal.dotGeneral_apply, ← Equiv.sum_comp (contrEquiv1 D1 1024 rfl rfl).symm]
  refine Finset.sum_congr rfl fun k _ => ?_
  have hk := contrEquiv1_symm_val D1 1024 rfl rfl k
  have el : D1.lhsIdx (ix3 b l e) ((contrEquiv1 D1 1024 rfl rfl).symm k) = ix3 b l k := funext fun a => Fin.ext (by
    match a with
    | ⟨0, _⟩ => exact d1_lhs0 _ _
    | ⟨1, _⟩ => exact d1_lhs1 _ _
    | ⟨2, _⟩ => exact (d1_lhs2 _ _).trans hk)
  have er : D1.rhsIdx (ix3 b l e) ((contrEquiv1 D1 1024 rfl rfl).symm k) = ix2 e k := funext fun a => Fin.ext (by
    match a with
    | ⟨0, _⟩ => exact d1_rhs0 _ _
    | ⟨1, _⟩ => exact (d1_rhs1 _ _).trans hk)
  rw [el, er]

theorem d2_lhs0 (i : S16x1024x1024.Idx) (q : D2.contr.Idx) : (D2.lhsIdx i q 0).val = (i 0).val := by
  unfold DotDims.lhsIdx
  rw [dif_pos (show (0 : Fin S16x1024x1024.rank) ∈ D2.lhsBatch by decide)]
  rfl
theorem d2_lhs1 (i : S16x1024x1024.Idx) (q : D2.contr.Idx) : (D2.lhsIdx i q 1).val = (i 1).val := by
  unfold DotDims.lhsIdx
  rw [dif_neg (show ¬(1 : Fin S16x1024x1024.rank) ∈ D2.lhsBatch by decide),
    dif_pos (show (1 : Fin S16x1024x1024.rank) ∈ D2.lhsNonContracting by decide)]
  rfl
theorem d2_lhs2 (i : S16x1024x1024.Idx) (q : D2.contr.Idx) : (D2.lhsIdx i q 2).val = (q ⟨0, by decide⟩).val :=
  D2.lhsIdx_val_of_single rfl i q
theorem d2_rhs0 (i : S16x1024x1024.Idx) (q : D2.contr.Idx) : (D2.rhsIdx i q 0).val = (i 0).val := by
  unfold DotDims.rhsIdx
  rw [dif_pos (show (0 : Fin S16x1024x1024.rank) ∈ D2.rhsBatch by decide)]
  rfl
theorem d2_rhs1 (i : S16x1024x1024.Idx) (q : D2.contr.Idx) : (D2.rhsIdx i q 1).val = (i 2).val := by
  unfold DotDims.rhsIdx
  rw [dif_neg (show ¬(1 : Fin S16x1024x1024.rank) ∈ D2.rhsBatch by decide),
    dif_pos (show (1 : Fin S16x1024x1024.rank) ∈ D2.rhsNonContracting by decide)]
  rfl
theorem d2_rhs2 (i : S16x1024x1024.Idx) (q : D2.contr.Idx) : (D2.rhsIdx i q 2).val = (q ⟨0, by decide⟩).val :=
  D2.rhsIdx_val_of_single rfl i q

/-- Two [batch, position, feature] arrays contracted over the feature axis, batch by batch. -/
theorem dotFeat_at (L R : A3) (b : Fin 16) (q k : Fin 1024) :
    Host.dotGeneral (F := Ideal) D2 none L R (ix3 b q k) = ∑ e : Fin 1024, L (ix3 b q e) * R (ix3 b k e) := by
  simp only [Host.dotGeneral]
  rw [Ideal.dotGeneral_apply, ← Equiv.sum_comp (contrEquiv1 D2 1024 rfl rfl).symm]
  refine Finset.sum_congr rfl fun e _ => ?_
  have he := contrEquiv1_symm_val D2 1024 rfl rfl e
  have el : D2.lhsIdx (ix3 b q k) ((contrEquiv1 D2 1024 rfl rfl).symm e) = ix3 b q e := funext fun a => Fin.ext (by
    match a with
    | ⟨0, _⟩ => exact d2_lhs0 _ _
    | ⟨1, _⟩ => exact d2_lhs1 _ _
    | ⟨2, _⟩ => exact (d2_lhs2 _ _).trans he)
  have er : D2.rhsIdx (ix3 b q k) ((contrEquiv1 D2 1024 rfl rfl).symm e) = ix3 b k e := funext fun a => Fin.ext (by
    match a with
    | ⟨0, _⟩ => exact d2_rhs0 _ _
    | ⟨1, _⟩ => exact d2_rhs1 _ _
    | ⟨2, _⟩ => exact (d2_rhs2 _ _).trans he)
  rw [el, er]

theorem d3_lhs0 (i : S16x1024x1024.Idx) (q : D3.contr.Idx) : (D3.lhsIdx i q 0).val = (i 0).val := by
  unfold DotDims.lhsIdx
  rw [dif_pos (show (0 : Fin S16x1024x1024.rank) ∈ D3.lhsBatch by decide)]
  rfl
theorem d3_lhs1 (i : S16x1024x1024.Idx) (q : D3.contr.Idx) : (D3.lhsIdx i q 1).val = (i 1).val := by
  unfold DotDims.lhsIdx
  rw [dif_neg (show ¬(1 : Fin S16x1024x1024.rank) ∈ D3.lhsBatch by decide),
    dif_pos (show (1 : Fin S16x1024x1024.rank) ∈ D3.lhsNonContracting by decide)]
  rfl
theorem d3_lhs2 (i : S16x1024x1024.Idx) (q : D3.contr.Idx) : (D3.lhsIdx i q 2).val = (q ⟨0, by decide⟩).val :=
  D3.lhsIdx_val_of_single rfl i q
theorem d3_rhs0 (i : S16x1024x1024.Idx) (q : D3.contr.Idx) : (D3.rhsIdx i q 0).val = (i 0).val := by
  unfold DotDims.rhsIdx
  rw [dif_pos (show (0 : Fin S16x1024x1024.rank) ∈ D3.rhsBatch by decide)]
  rfl
theorem d3_rhs1 (i : S16x1024x1024.Idx) (q : D3.contr.Idx) : (D3.rhsIdx i q 1).val = (q ⟨0, by decide⟩).val :=
  D3.rhsIdx_val_of_single rfl i q
theorem d3_rhs2 (i : S16x1024x1024.Idx) (q : D3.contr.Idx) : (D3.rhsIdx i q 2).val = (i 2).val := by
  unfold DotDims.rhsIdx
  rw [dif_neg (show ¬(2 : Fin S16x1024x1024.rank) ∈ D3.rhsBatch by decide),
    dif_pos (show (2 : Fin S16x1024x1024.rank) ∈ D3.rhsNonContracting by decide)]
  rfl

/-- A [batch, query, key] array times a [batch, key, feature] array, contracted over the key axis, batch by batch. -/
theorem dotKey_at (P V : A3) (b : Fin 16) (q e : Fin 1024) :
    Host.dotGeneral (F := Ideal) D3 none P V (ix3 b q e) = ∑ k : Fin 1024, P (ix3 b q k) * V (ix3 b k e) := by
  simp only [Host.dotGeneral]
  rw [Ideal.dotGeneral_apply, ← Equiv.sum_comp (contrEquiv1 D3 1024 rfl rfl).symm]
  refine Finset.sum_congr rfl fun k _ => ?_
  have hk := contrEquiv1_symm_val D3 1024 rfl rfl k
  have el : D3.lhsIdx (ix3 b q e) ((contrEquiv1 D3 1024 rfl rfl).symm k) = ix3 b q k := funext fun a => Fin.ext (by
    match a with
    | ⟨0, _⟩ => exact d3_lhs0 _ _
    | ⟨1, _⟩ => exact d3_lhs1 _ _
    | ⟨2, _⟩ => exact (d3_lhs2 _ _).trans hk)
  have er : D3.rhsIdx (ix3 b q e) ((contrEquiv1 D3 1024 rfl rfl).symm k) = ix3 b k e := funext fun a => Fin.ext (by
    match a with
    | ⟨0, _⟩ => exact d3_rhs0 _ _
    | ⟨1, _⟩ => exact (d3_rhs1 _ _).trans hk
    | ⟨2, _⟩ => exact d3_rhs2 _ _)
  rw [el, er]

/-! ## Elementwise host operations at an index -/

theorem hostDivf_at {s : Shape} (x y : FVec Ideal s .f32) (i : s.Idx) : Host.divf x y i = Ideal.div (x i) (y i) := rfl
theorem hostSqrt_at {s : Shape} (x : FVec Ideal s .f32) (i : s.Idx) : Host.sqrt x i = Ideal.sqrt (x i) := rfl
theorem hostExp_at {s : Shape} (x : FVec Ideal s .f32) (i : s.Idx) : Host.exp x i = Ideal.exp (x i) := rfl

/-! ## The program's pieces over arbitrary arrays

The reference program is built from five pieces, each used several times: the column normalization, the rectified
projection, the scaled scores, the softmax over the query axis, and one side (residual plus attended values). They
are written here over arbitrary operand arrays, in the program's own operations and in its [batch, position, feature]
layout for everything between the transposes; every stage of the program is one of them at the right operands. -/

/-- Every feature column divided by its clamped Euclidean norm. -/
def pNorm (X : A3) : A3 :=
  Host.divf X (broadcastInDim S16x1024x1024 ![0, 1, 2] bcast_S16x1x1024_S16x1024x1024_0_1_2
    (maximumf
      (Host.sqrt (broadcastInDim S16x1x1024 ![0, 2] bcast_S16x1024_S16x1x1024_0_2
        (Host.reduceAdd (mulf X X) (constant (F := Ideal) S_ .f32 0x00000000#32) reducesTo_S16x1024x1024_S16x1024_d1 h_S_)))
      (broadcastInDim S16x1x1024 ![] bcast_S_S16x1x1024 (constant (F := Ideal) S_ .f32 0x2B8CBCCC#32))))

/-- The transposed array times a weight, rectified: in [batch, position, feature-out] layout. -/
def pProj (X : A3) (W : A2) : A3 :=
  maximumf
    (Host.dotGeneral (F := Ideal) D1 none (transpose S16x1024x1024 [0, 2, 1] X transposes_S16x1024x1024_S16x1024x1024_0_2_1) W)
    (broadcastInDim S16x1024x1024 ![] bcast_S_S16x1024x1024 (constant (F := Ideal) S_ .f32 0x00000000#32))

/-- One over the square root of 1024, as the program computes it. -/
def pScale : A0 :=
  Host.divf (constant (F := Ideal) S_ .f32 0x3F800000#32) (Host.sqrt (constant (F := Ideal) S_ .f32 0x44800000#32))

/-- The scaled scores in [batch, query, key] layout. -/
def pScore (Q K : A3) : A3 :=
  mulf (Host.dotGeneral (F := Ideal) D2 none Q K) (broadcastInDim S16x1024x1024 ![] bcast_S_S16x1024x1024 pScale)

/-- The largest score of every key over the queries. -/
def pMax (S : A3) : R2 :=
  maximumf (broadcastInDim S16x1024 ![] bcast_S_S16x1024 (constant (F := Ideal) S_ .f32 0xFF800000#32))
    (Host.reduce (FloatOps.maximumf (F := Ideal) (φ := .f32)) S (constant (F := Ideal) S_ .f32 0xFF800000#32) reducesTo_S16x1024x1024_S16x1024_d1 h_S_)

/-- The exponentials of the scores, every key's shifted by its largest. -/
def pExp (S : A3) : A3 :=
  Host.exp (subf S (broadcastInDim S16x1024x1024 ![0, 1, 2] bcast_S16x1x1024_S16x1024x1024_0_1_2
    (broadcastInDim S16x1x1024 ![0, 2] bcast_S16x1024_S16x1x1024_0_2 (pMax S))))

/-- The softmax over the query axis. -/
def pSoft (S : A3) : A3 :=
  Host.divf (pExp S) (broadcastInDim S16x1024x1024 ![0, 1, 2] bcast_S16x1x1024_S16x1024x1024_0_1_2
    (broadcastInDim S16x1x1024 ![0, 2] bcast_S16x1024_S16x1x1024_0_2
      (Host.reduceAdd (pExp S) (constant (F := Ideal) S_ .f32 0x00000000#32) reducesTo_S16x1024x1024_S16x1024_d1 h_S_)))

/-- One side before its normalization: `X` gives the queries and the residual, `Y` the keys and the values. -/
def pSide (X Y : A3) (wq wk wv : A2) : A3 :=
  addf X (transpose S16x1024x1024 [0, 2, 1]
    (Host.dotGeneral (F := Ideal) D3 none (pSoft (pScore (pProj X wq) (pProj Y wk))) (pProj Y wv))
    transposes_S16x1024x1024_S16x1024x1024_0_2_1)

/-- The whole program. -/
def pAll (x0 x1 : A3) (x2 x3 x4 x5 x6 x7 : A2) : A3 :=
  pNorm (addf (pNorm (pSide x0 (pNorm x1) x2 x3 x4)) (pNorm (pSide (pNorm x1) x0 x5 x6 x7)))

/-! ## The pieces as the tiles' operations -/

/-- A [batch, position, feature] array's batch element as a feature-by-position tile. -/
def tileT (Y : A3) (b : Fin 16) : Mat := fun e l => Y (ix3 b l e)

theorem pNorm_at (X : A3) (b : Fin 16) (d q : Fin 1024) : pNorm X (ix3 b d q) = normDiv (mat3 X b) d q := by
  unfold pNorm
  rw [hostDivf_at, bcastRows_at, maximumf_apply, hostSqrt_at, bcastUnit_at, bcastScalarK_at, sumRows_at,
    constant_apply, constant_apply, Ideal.ofBits_zero_f32, zero_add]
  rfl

theorem mat3_pNorm (X : A3) (b : Fin 16) : mat3 (pNorm X) b = normDiv (mat3 X b) :=
  funext fun d => funext fun q => pNorm_at X b d q

theorem pProj_at (X : A3) (W : A2) (b : Fin 16) (l e : Fin 1024) :
    pProj X W (ix3 b l e) = proj (mat2 W) (mat3 X b) e l := by
  unfold pProj
  rw [maximumf_apply, dotW_at, bcastScalar3_at, constant_apply, Ideal.ofBits_zero_f32]
  unfold proj
  refine congrArg (max · 0) (Finset.sum_congr rfl fun k _ => ?_)
  rw [transpose_at, mul_comm]
  rfl

theorem tileT_pProj (X : A3) (W : A2) (b : Fin 16) : tileT (pProj X W) b = proj (mat2 W) (mat3 X b) :=
  funext fun e => funext fun l => pProj_at X W b l e

theorem pScale_at : pScale ix0 = scaleSqrt := rfl

theorem pScore_at (Q K : A3) (b : Fin 16) (q k : Fin 1024) :
    pScore Q K (ix3 b q k) = score scaleSqrt (tileT K b) (tileT Q b) k q := by
  unfold pScore
  rw [mulf_apply, dotFeat_at, bcastScalar3_at, pScale_at]
  unfold score
  refine congrArg (· * scaleSqrt) (Finset.sum_congr rfl fun e _ => ?_)
  rw [mul_comm]
  rfl

/-- A [batch, query, key] array's batch element as a key-by-query tile. -/
def tileS (S : A3) (b : Fin 16) : Mat := fun k q => S (ix3 b q k)

theorem tileS_pScore (Q K : A3) (b : Fin 16) : tileS (pScore Q K) b = score scaleSqrt (tileT K b) (tileT Q b) :=
  funext fun k => funext fun q => pScore_at Q K b q k

theorem pMax_at (S : A3) (b : Fin 16) (k : Fin 1024) : pMax S (ix2 b k) = rowMax (tileS S b k) := by
  unfold pMax
  rw [maximumf_apply, bcastScalarR_at, constant_apply, negInf_f32, maxRows_at]
  exact max_eq_right bot_le

theorem pExp_at (S : A3) (b : Fin 16) (q k : Fin 1024) : pExp S (ix3 b q k) = expShift (tileS S b) k q := by
  unfold pExp
  rw [hostExp_at, subf_apply, bcastRows_at, bcastUnit_at, pMax_at]
  rfl

theorem pSoft_at (S : A3) (b : Fin 16) (q k : Fin 1024) : pSoft S (ix3 b q k) = softDiv (tileS S b) k q := by
  unfold pSoft
  rw [hostDivf_at, bcastRows_at, bcastUnit_at, sumRows_at, constant_apply, Ideal.ofBits_zero_f32, zero_add, pExp_at]
  unfold softDiv
  refine congrArg (Ideal.div _) (Finset.sum_congr rfl fun q' _ => ?_)
  exact pExp_at S b q' k

theorem tileS_pSoft (S : A3) (b : Fin 16) : tileS (pSoft S) b = softDiv (tileS S b) :=
  funext fun k => funext fun q => pSoft_at S b q k

theorem pSide_at (X Y : A3) (wq wk wv : A2) (b : Fin 16) (d q : Fin 1024) :
    pSide X Y wq wk wv (ix3 b d q)
      = mat3 X b d q + attend (proj (mat2 wv) (mat3 Y b))
          (softDiv (score scaleSqrt (proj (mat2 wk) (mat3 Y b)) (proj (mat2 wq) (mat3 X b)))) d q := by
  unfold pSide
  rw [addf_apply, transpose_at, dotKey_at, ← tileT_pProj Y wv b, ← tileT_pProj Y wk b, ← tileT_pProj X wq b,
    ← tileS_pScore, ← tileS_pSoft]
  unfold attend
  refine congrArg (mat3 X b d q + ·) (Finset.sum_congr rfl fun k _ => ?_)
  rw [mul_comm]
  rfl

theorem mat3_pSide (X Y : A3) (wq wk wv : A2) (b : Fin 16) :
    mat3 (pSide X Y wq wk wv) b
      = fun d q => mat3 X b d q + attend (proj (mat2 wv) (mat3 Y b))
          (softDiv (score scaleSqrt (proj (mat2 wk) (mat3 Y b)) (proj (mat2 wq) (mat3 X b)))) d q :=
  funext fun d => funext fun q => pSide_at X Y wq wk wv b d q

theorem pAll_at (x0 x1 : A3) (x2 x3 x4 x5 x6 x7 : A2) (b : Fin 16) (d q : Fin 1024) :
    pAll x0 x1 x2 x3 x4 x5 x6 x7 (ix3 b d q)
      = crossAttn normDiv softDiv scaleSqrt (mat3 x0 b) (mat3 x1 b) (mat2 x2) (mat2 x3) (mat2 x4) (mat2 x5) (mat2 x6) (mat2 x7) d q := by
  unfold pAll
  rw [pNorm_at]
  have hsum : mat3 (addf (pNorm (pSide x0 (pNorm x1) x2 x3 x4)) (pNorm (pSide (pNorm x1) x0 x5 x6 x7))) b
      = fun d q => mat3 (pNorm (pSide x0 (pNorm x1) x2 x3 x4)) b d q + mat3 (pNorm (pSide (pNorm x1) x0 x5 x6 x7)) b d q := rfl
  rw [hsum, mat3_pNorm, mat3_pNorm, mat3_pSide, mat3_pSide, mat3_pNorm]
  rfl

/-! ## The program is the pieces composed -/

open Cert.ReferenceIdeal.ReadP in
/-- The program's last stage is the composition of the pieces: every stage unfolds to its piece at the earlier stages. -/
theorem v82_eq (x0 x1 : A3) (x2 x3 x4 x5 x6 x7 : A2) :
    val_main_v82 (F := Ideal) x0 x1 x2 x3 x4 x5 x6 x7 = pAll x0 x1 x2 x3 x4 x5 x6 x7 := rfl

open Cert.ReferenceIdeal.ReadP in
/-- The reference's result at batch `b`, feature `d`, position `q` is the cross attention of the batch element's
    tiles there, with the quotients spelled as divisions and the score scale as one over the square root of 1024. -/
theorem ref_value (x0 x1 : (⟨S16x1024x1024, .f32⟩ : BufTy).Contents (Elt Ideal))
    (x2 x3 x4 x5 x6 x7 : (⟨S1024x1024, .f32⟩ : BufTy).Contents (Elt Ideal)) (b : Fin 16) (d q : Fin 1024) :
    val_main_v82 (F := Ideal) x0 x1 x2 x3 x4 x5 x6 x7 (ix3 b d q)
      = crossAttn normDiv softDiv scaleSqrt (mat3 x0 b) (mat3 x1 b) (mat2 x2) (mat2 x3) (mat2 x4) (mat2 x5) (mat2 x6) (mat2 x7) d q :=
  (congrFun (v82_eq x0 x1 x2 x3 x4 x5 x6 x7) (ix3 b d q)).trans (pAll_at x0 x1 x2 x3 x4 x5 x6 x7 b d q)

end Cert.CrossAttn.Ref

end
-- ==== Proof.lean ====
/-
  Two-sided cross attention: a kernel that handles one batch element per grid point, in
  feature-by-position layout, against a batched jnp reference in position-by-feature layout.

  Over the extended reals both programs compute `crossAttn` of the batch element's two tiles and the
  six weight matrices (Proof/Spec.lean). The kernel multiplies by reciprocals (of a column's clamped norm,
  of a softmax row's sum) and scales the scores by the literal 1/32; the reference divides and scales by
  one over the square root of 1024. On finite inputs the two spellings agree (Proof/Math.lean): the clamped
  norm is never zero, a softmax row's sum of exponentials of real scores is positive, and the two scales
  are the real 1/32. Changes of float format are the identity on the extended reals, so the kernel's
  conversions to the short format do not appear.

  The kernel's result array is read off its run block by block (Proof/KerSide.lean for the body's value at
  an index, Proof/KerFinal.lean from the blocks to the whole array); the reference's result is read one
  operation at a time (Proof/RefSide.lean). The precondition gives that every input entry is a real
  number (Proof/Finite.lean). The three frames are the generated runs; the kernel's idealization rewrote
  nothing, so there is nothing to preserve.
-/
import proofs.«430962_j39101382263234_3_alg».proof.Defs
import proofs.«430962_j39101382263234_3_alg».proof.Proof.Gen.Kernel
import proofs.«430962_j39101382263234_3_alg».proof.Proof.Gen.Kernel.Skeleton
import proofs.«430962_j39101382263234_3_alg».proof.Proof.Gen.Kernel.Launch
import proofs.«430962_j39101382263234_3_alg».proof.Proof.Gen.Kernel.Points
import proofs.«430962_j39101382263234_3_alg».proof.Proof.Gen.Kernel.Frame
import proofs.«430962_j39101382263234_3_alg».proof.Proof.Gen.KernelIdeal
import proofs.«430962_j39101382263234_3_alg».proof.Proof.Gen.KernelIdeal.Skeleton
import proofs.«430962_j39101382263234_3_alg».proof.Proof.Gen.KernelIdeal.Launch
import proofs.«430962_j39101382263234_3_alg».proof.Proof.Gen.KernelIdeal.Points
import proofs.«430962_j39101382263234_3_alg».proof.Proof.Gen.KernelIdeal.Frame
import proofs.«430962_j39101382263234_3_alg».proof.Proof.Gen.ReferenceIdeal
import proofs.«430962_j39101382263234_3_alg».proof.Proof.Gen.Pre_finite_inputs
import proofs.«430962_j39101382263234_3_alg».proof.Proof.Gen.KernelIdeal.Value
import proofs.«430962_j39101382263234_3_alg».proof.Proof.RefRun
import proofs.«430962_j39101382263234_3_alg».proof.Proof.RefRead
import proofs.«430962_j39101382263234_3_alg».proof.Proof.Spec
import proofs.«430962_j39101382263234_3_alg».proof.Proof.Math
import proofs.«430962_j39101382263234_3_alg».proof.Proof.Finite
import proofs.«430962_j39101382263234_3_alg».proof.Proof.KerSide
import proofs.«430962_j39101382263234_3_alg».proof.Proof.KerFinal
import proofs.«430962_j39101382263234_3_alg».proof.Proof.RefSide
import Idealize.ShloMosaic.Adequacy
import Idealize.ShloMosaic.Init

noncomputable section

namespace Cert.Proof

open Idealize.ShloMosaic Idealize.ShloMosaic.ValueIdx Idealize.SL.Sem Cert.CrossAttn

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a host program: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From arguments that agree and are finite, the kernel's result array (the reciprocal spelling, batch element by
    batch element) is the reference's (the quotient spelling): at every index both are `crossAttn` of the same real
    tiles, and on real tiles the spellings agree. -/
theorem algebraic : Cert.algebraic_KernelIdeal_ReferenceIdeal := by
  intro m ρ m' ρ' hpre hagree
  refine ⟨fun c => Cert.CrossAttn.KerFinal.resultK m c, Cert.CrossAttn.KerFinal.kernel_run m ρ Cert.CrossAttn.Ker.out_value, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  obtain ⟨r0, r1, r2, r3, r4, r5, r6, r7⟩ := Cert.CrossAttn.Finite.real_of_pre _ _ _ _ _ _ _ _ (hpre c)
  rw [Cert.ReferenceIdeal.ReadP.val_main_v82_eq, h0, h1, h2, h3, h4, h5, h6, h7]
  funext i
  obtain ⟨b, d, q, rfl⟩ : ∃ (b : Fin 16) (d q : Fin 1024), i = ix3 b d q := ⟨i 0, i 1, i 2, eq_ix3 i⟩
  refine (Cert.CrossAttn.Ref.ref_value _ _ _ _ _ _ _ _ b d q).trans ?_
  exact (congrFun (congrFun (crossAttn_mul_eq_div (fun a b => r0 _) (fun a b => r1 _) (fun a b => r2 _)
    (fun a b => r3 _) (fun a b => r5 _) (fun a b => r6 _)) _) _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
